-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x16x128 : Shape := ⟨3, ![512, 16, 128]⟩
abbrev S512x16x16 : Shape := ⟨3, ![512, 16, 16]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S512x16x128 : S_.BroadcastsInDim S512x16x128 (![] : Fin 0 → Fin S512x16x128.rank)
  reducesTo_S512x16x128_S_d0_1_2 : S512x16x128.ReducesTo [0, 1, 2] S_
  h_S_ : 0 < S_.numel
  bcast_S_S512x16x16 : S_.BroadcastsInDim S512x16x16 (![] : Fin 0 → Fin S512x16x16.rank)
  reducesTo_S512x16x16_S_d0_1_2 : S512x16x16.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg4 : FVec F S128x64 .f32) (main_arg5 : FVec F S64 .f32) (main_arg6 : FVec F S64x32 .f32) (main_arg7 : FVec F S32 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg6
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg7 main_v33

def fn {F : FTy → Type} [FloatOps F] (main_arg0 : FVec F S512x16x128 .f32) (main_arg1 : FVec F S512x16x16 .f32) (main_arg2 : FVec F S128x128 .f32) (main_arg3 : FVec F S128 .f32) (main_arg4 : FVec F S128x64 .f32) (main_arg5 : FVec F S64 .f32) (main_arg6 : FVec F S64x32 .f32) (main_arg7 : FVec F S32 .f32) : IVec S_ 1 :=
  let main_v0 : FVec F S512x16x128 .f32 := Host.absf main_arg0
  let main_cst : FVec F S_ .f32 := constant S_ .f32 0x7F800000#32
  let main_v1 : FVec F S512x16x128 .f32 := broadcastInDim S512x16x128 ![] bcast_S_S512x16x128 main_cst
  let main_v2 : IVec S512x16x128 1 := cmpf .olt main_v0 main_v1
  let main_c : IVec S_ 1 := constantI S_ 1 1#1
  let main_v3 : IVec S_ 1 := (fun x v => Host.reduce IntOp.andi x v reducesTo_S512x16x128_S_d0_1_2 h_S_) main_v2 main_c
  let main_v4 : FVec F S512x16x16 .f32 := Host.absf main_arg1
  let main_cst_0 : FVec F S_ .f32 := constant S_ .f32 0x7F800000#32
  let main_v5 : FVec F S512x16x16 .f32 := broadcastInDim S512x16x16 ![] bcast_S_S512x16x16 main_cst_0
  let main_v6 : IVec S512x16x16 1 := cmpf .olt main_v4 main_v5
  let main_c_1 : IVec S_ 1 := constantI S_ 1 1#1
  let main_v7 : IVec S_ 1 := (fun x v => Host.reduce IntOp.andi x v reducesTo_S512x16x16_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S512x16x128 : Shape := ⟨3, ![512, 16, 128]⟩
abbrev S512x16x16 : Shape := ⟨3, ![512, 16, 16]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x128 : Shape := ⟨2, ![1, 128]⟩
abbrev S1x64 : Shape := ⟨2, ![1, 64]⟩
abbrev S1x32 : Shape := ⟨2, ![1, 32]⟩
abbrev S512x32 : Shape := ⟨2, ![512, 32]⟩
abbrev S16x16x128 : Shape := ⟨3, ![16, 16, 128]⟩
abbrev S16x16x16 : Shape := ⟨3, ![16, 16, 16]⟩
abbrev S16x32 : Shape := ⟨2, ![16, 32]⟩
abbrev S256x128 : Shape := ⟨2, ![256, 128]⟩
abbrev S256x16 : Shape := ⟨2, ![256, 16]⟩
abbrev S256x256 : Shape := ⟨2, ![256, 256]⟩
abbrev S256x64 : Shape := ⟨2, ![256, 64]⟩
abbrev S256x32 : Shape := ⟨2, ![256, 32]⟩
abbrev S16x256 : Shape := ⟨2, ![16, 256]⟩
abbrev S512x32x1x1 : Shape := ⟨4, ![512, 32, 1, 1]⟩

abbrev nBuf : Space → Nat
  | .hbm => 13
  | .vmem => 12
  | .smem => 0
  | _ => 0

abbrev bufTy : (tb : Table) → Fin (tcTables nBuf tb) → BufTy
  | .hbm, ⟨0, _⟩ => ⟨S512x16x128, .f32⟩
  | .hbm, ⟨1, _⟩ => ⟨S512x16x16, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S1x128, .f32⟩
  | .hbm, ⟨9, _⟩ => ⟨S1x64, .f32⟩
  | .hbm, ⟨10, _⟩ => ⟨S1x32, .f32⟩
  | .hbm, ⟨11, _⟩ => ⟨S512x32, .f32⟩
  | .hbm, ⟨12, _⟩ => ⟨S512x32x1x1, .f32⟩
  | .local _ .vmem, ⟨0, _⟩ => ⟨S16x16x128, .f32⟩
  | .local _ .vmem, ⟨1, _⟩ => ⟨S16x16x128, .f32⟩
  | .local _ .vmem, ⟨2, _⟩ => ⟨S16x16x16, .f32⟩
  | .local _ .vmem, ⟨3, _⟩ => ⟨S16x16x16, .f32⟩
  | .local _ .vmem, ⟨4, _⟩ => ⟨S128x128, .f32⟩
  | .local _ .vmem, ⟨5, _⟩ => ⟨S1x128, .f32⟩
  | .local _ .vmem, ⟨6, _⟩ => ⟨S128x64, .f32⟩
  | .local _ .vmem, ⟨7, _⟩ => ⟨S1x64, .f32⟩
  | .local _ .vmem, ⟨8, _⟩ => ⟨S64x32, .f32⟩
  | .local _ .vmem, ⟨9, _⟩ => ⟨S1x32, .f32⟩
  | .local _ .vmem, ⟨10, _⟩ => ⟨S16x32, .f32⟩
  | .local _ .vmem, ⟨11, _⟩ => ⟨S16x32, .f32⟩
  | _, _ => ⟨S512x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x16x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S16x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S128_S1x128 : S128.ShapeCasts S1x128
  shapeCasts_S64_S1x64 : S64.ShapeCasts S1x64
  shapeCasts_S32_S1x32 : S32.ShapeCasts S1x32
  inb_S16x16x128_S16x16x128_0_0_0 : ∀ a, (![0, 0, 0] : Fin 3 → Nat) a + S16x16x128.size a ≤ S16x16x128.size a
  h_S16x16x128 : 0 < S16x16x128.numel
  shapeCasts_S16x16x128_S256x128 : S16x16x128.ShapeCasts S256x128
  inb_S16x16x16_S16x16x16_0_0_0 : ∀ a, (![0, 0, 0] : Fin 3 → Nat) a + S16x16x16.size a ≤ S16x16x16.size a
  h_S16x16x16 : 0 < S16x16x16.numel
  shapeCasts_S16x16x16_S256x16 : S16x16x16.ShapeCasts S256x16
  concatenates_S256x16_S256x16_S256x16_S256x16_S256x16_S256x16_S256x16_S256x16_S256x16_S256x16_S256x16_S256x16_S256x16_S256x16_S256x16_S256x16_S256x256_d1 : Shape.Concatenates [S256x16, S256x16, S256x16, S256x16, S256x16, S256x16, S256x16, S256x16, S256x16, S256x16, S256x16, S256x16, S256x16, S256x16, S256x16, S256x16] S256x256 1
  iota_S256x256_d0_w32 : S256x256.Iotas .tc 32 [0]
  natLt_1_32 : 1 < 32
  iota_S256x256_d1_w32 : S256x256.Iotas .tc 32 [1]
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S256x32 : S1x32.Broadcasts S256x32
  iota_S16x256_d0_w32 : S16x256.Iotas .tc 32 [0]
  iota_S16x256_d1_w32 : S16x256.Iotas .tc 32 [1]
  inb_S16x32_S16x32_0_0 : ∀ a, (![0, 0] : Fin 2 → Nat) a + S16x32.size a ≤ S16x32.size a
  h_S16x32 : 0 < S16x32.numel
  shapeCasts_S512x32_S512x32x1x1 : S512x32.ShapeCasts S512x32x1x1
  dot_S256x128_S128x128_S256x128_1_0_0_1_n_n_wf : DotDims.WF S256x128 S128x128 S256x128 [1] [0] [0] [1] [] []
  dot_S256x256_S256x128_S256x128_1_0_0_1_n_n_wf : DotDims.WF S256x256 S256x128 S256x128 [1] [0] [0] [1] [] []
  dot_S256x128_S128x64_S256x64_1_0_0_1_n_n_wf : DotDims.WF S256x128 S128x64 S256x64 [1] [0] [0] [1] [] []
  dot_S256x256_S256x64_S256x64_1_0_0_1_n_n_wf : DotDims.WF S256x256 S256x64 S256x64 [1] [0] [0] [1] [] []
  dot_S256x64_S64x32_S256x32_1_0_0_1_n_n_wf : DotDims.WF S256x64 S64x32 S256x32 [1] [0] [0] [1] [] []
  dot_S256x256_S256x32_S256x32_1_0_0_1_n_n_wf : DotDims.WF S256x256 S256x32 S256x32 [1] [0] [0] [1] [] []
  dot_S16x256_S256x32_S16x32_1_0_0_1_n_n_wf : DotDims.WF S16x256 S256x32 S16x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x16x128.size a ≤ S512x16x128.size a
  hwx0_0 : ∀ i : grid0.Coords, EltTy.bits .f32 = 32 ∨ (Rect.block (s := S512x16x128) S16x16x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x16x16.size a ≤ S512x16x16.size a
  hwx0_1 : ∀ i : grid0.Coords, EltTy.bits .f32 = 32 ∨ (Rect.block (s := S512x16x16) S16x16x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x32.size a ≤ S64x32.size a
  hwx0_6 : ∀ i : grid0.Coords, EltTy.bits .f32 = 32 ∨ (Rect.block (s := S64x32) S64x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x32.size a ≤ S512x32.size a
  hwx0_8 : ∀ i : grid0.Coords, EltTy.bits .f32 = 32 ∨ (Rect.block (s := S512x32) S16x32.size (cc0_transform_8 i) (hinb0_8 i)).WholeWords (EltTy.packing .f32)

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S256x64_S64x32_S256x32_1_0_0_1_n_n : DotDims S256x64 S64x32 S256x32 where
  lhsContracting := [1]
  rhsContracting := [0]
  lhsNonContracting := [0]
  rhsNonContracting := [1]
  lhsBatch := []
  rhsBatch := []
  wf := dot_S256x64_S64x32_S256x32_1_0_0_1_n_n_wf
def dot_S256x256_S256x32_S256x32_1_0_0_1_n_n : DotDims S256x256 S256x32 S256x32 where
  lhsContracting := [1]
  rhsContracting := [0]
  lhsNonContracting := [0]
  rhsNonContracting := [1]
  lhsBatch := []
  rhsBatch := []
  wf := dot_S256x256_S256x32_S256x32_1_0_0_1_n_n_wf
def dot_S16x256_S256x32_S16x32_1_0_0_1_n_n : DotDims S16x256 S256x32 S16x32 where
  lhsContracting := [1]
  rhsContracting := [0]
  lhsNonContracting := [0]
  rhsNonContracting := [1]
  lhsBatch := []
  rhsBatch := []
  wf := dot_S16x256_S256x32_S16x32_1_0_0_1_n_n_wf

abbrev win0_0 : Pipeline.Window sig grid0 :=
  Pipeline.Window.ofSpec (Memref.whole main_arg0) S16x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x16x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S16x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S512x16x128 : Shape := ⟨3, ![512, 16, 128]⟩
abbrev S512x16x16 : Shape := ⟨3, ![512, 16, 16]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S8192x128 : Shape := ⟨2, ![8192, 128]⟩
abbrev S512 : Shape := ⟨1, ![512]⟩
abbrev S_ : Shape := ⟨0, ![]⟩
abbrev S512x1x1 : Shape := ⟨3, ![512, 1, 1]⟩
abbrev S16 : Shape := ⟨1, ![16]⟩
abbrev S1x16x1 : Shape := ⟨3, ![1, 16, 1]⟩
abbrev S512x16x1 : Shape := ⟨3, ![512, 16, 1]⟩
abbrev S1x1x16 : Shape := ⟨3, ![1, 1, 16]⟩
abbrev S512x1x16 : Shape := ⟨3, ![512, 1, 16]⟩
abbrev S8192x8192 : Shape := ⟨2, ![8192, 8192]⟩
abbrev S512x16x16x1 : Shape := ⟨4, ![512, 16, 16, 1]⟩
abbrev S512x16x16x2 : Shape := ⟨4, ![512, 16, 16, 2]⟩
abbrev S1x128 : Shape := ⟨2, ![1, 128]⟩
abbrev S8192x64 : Shape := ⟨2, ![8192, 64]⟩
abbrev S1x64 : Shape := ⟨2, ![1, 64]⟩
abbrev S8192x32 : Shape := ⟨2, ![8192, 32]⟩
abbrev S1x32 : Shape := ⟨2, ![1, 32]⟩
abbrev S512x16x32 : Shape := ⟨3, ![512, 16, 32]⟩
abbrev S1x512x1x16x1x32 : Shape := ⟨6, ![1, 512, 1, 16, 1, 32]⟩
abbrev S512x32 : Shape := ⟨2, ![512, 32]⟩
abbrev S512x1x32 : Shape := ⟨3, ![512, 1, 32]⟩
abbrev S512x32x1 : Shape := ⟨3, ![512, 32, 1]⟩
abbrev S512x32x1x1 : Shape := ⟨4, ![512, 32, 1, 1]⟩

abbrev nBuf : Space → Nat
  | .hbm => 80
  | .vmem => 0
  | .smem => 0
  | _ => 0

abbrev bufTy : (tb : Table) → Fin (tcTables nBuf tb) → BufTy
  | .hbm, ⟨0, _⟩ => ⟨S512x16x128, .f32⟩
  | .hbm, ⟨1, _⟩ => ⟨S512x16x16, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S8192x128, .f32⟩
  | .hbm, ⟨9, _⟩ => ⟨S512, .i32⟩
  | .hbm, ⟨10, _⟩ => ⟨S_, .i32⟩
  | .hbm, ⟨11, _⟩ => ⟨S512, .i32⟩
  | .hbm, ⟨12, _⟩ => ⟨S512, .i32⟩
  | .hbm, ⟨13, _⟩ => ⟨S512x1x1, .i32⟩
  | .hbm, ⟨14, _⟩ => ⟨S16, .i32⟩
  | .hbm, ⟨15, _⟩ => ⟨S1x16x1, .i32⟩
  | .hbm, ⟨16, _⟩ => ⟨S512x16x1, .i32⟩
  | .hbm, ⟨17, _⟩ => ⟨S512x16x1, .i32⟩
  | .hbm, ⟨18, _⟩ => ⟨S512x16x1, .i32⟩
  | .hbm, ⟨19, _⟩ => ⟨S512x1x1, .i32⟩
  | .hbm, ⟨20, _⟩ => ⟨S16, .i32⟩
  | .hbm, ⟨21, _⟩ => ⟨S1x1x16, .i32⟩
  | .hbm, ⟨22, _⟩ => ⟨S512x1x16, .i32⟩
  | .hbm, ⟨23, _⟩ => ⟨S512x1x16, .i32⟩
  | .hbm, ⟨24, _⟩ => ⟨S512x1x16, .i32⟩
  | .hbm, ⟨25, _⟩ => ⟨S_, .f32⟩
  | .hbm, ⟨26, _⟩ => ⟨S8192x8192, .f32⟩
  | .hbm, ⟨27, _⟩ => ⟨S_, .i32⟩
  | .hbm, ⟨28, _⟩ => ⟨S512x16x1, .i32⟩
  | .hbm, ⟨29, _⟩ => ⟨S512x16x1, .i1⟩
  | .hbm, ⟨30, _⟩ => ⟨S_, .i32⟩
  | .hbm, ⟨31, _⟩ => ⟨S512x16x1, .i32⟩
  | .hbm, ⟨32, _⟩ => ⟨S512x16x1, .i32⟩
  | .hbm, ⟨33, _⟩ => ⟨S512x16x1, .i32⟩
  | .hbm, ⟨34, _⟩ => ⟨S_, .i32⟩
  | .hbm, ⟨35, _⟩ => ⟨S512x1x16, .i32⟩
  | .hbm, ⟨36, _⟩ => ⟨S512x1x16, .i1⟩
  | .hbm, ⟨37, _⟩ => ⟨S_, .i32⟩
  | .hbm, ⟨38, _⟩ => ⟨S512x1x16, .i32⟩
  | .hbm, ⟨39, _⟩ => ⟨S512x1x16, .i32⟩
  | .hbm, ⟨40, _⟩ => ⟨S512x1x16, .i32⟩
  | .hbm, ⟨41, _⟩ => ⟨S512x16x16, .i32⟩
  | .hbm, ⟨42, _⟩ => ⟨S512x16x16, .i32⟩
  | .hbm, ⟨43, _⟩ => ⟨S512x16x16x1, .i32⟩
  | .hbm, ⟨44, _⟩ => ⟨S512x16x16x1, .i32⟩
  | .hbm, ⟨45, _⟩ => ⟨S512x16x16x2, .i32⟩
  | .hbm, ⟨46, _⟩ => ⟨S8192x8192, .f32⟩
  | .hbm, ⟨47, _⟩ => ⟨S8192x128, .f32⟩
  | .hbm, ⟨48, _⟩ => ⟨S8192x128, .f32⟩
  | .hbm, ⟨49, _⟩ => ⟨S1x128, .f32⟩
  | .hbm, ⟨50, _⟩ => ⟨S8192x128, .f32⟩
  | .hbm, ⟨51, _⟩ => ⟨S8192x128, .f32⟩
  | .hbm, ⟨52, _⟩ => ⟨S_, .f32⟩
  | .hbm, ⟨53, _⟩ => ⟨S8192x128, .f32⟩
  | .hbm, ⟨54, _⟩ => ⟨S8192x128, .f32⟩
  | .hbm, ⟨55, _⟩ => ⟨S8192x64, .f32⟩
  | .hbm, ⟨56, _⟩ => ⟨S8192x64, .f32⟩
  | .hbm, ⟨57, _⟩ => ⟨S1x64, .f32⟩
  | .hbm, ⟨58, _⟩ => ⟨S8192x64, .f32⟩
  | .hbm, ⟨59, _⟩ => ⟨S8192x64, .f32⟩
  | .hbm, ⟨60, _⟩ => ⟨S_, .f32⟩
  | .hbm, ⟨61, _⟩ => ⟨S8192x64, .f32⟩
  | .hbm, ⟨62, _⟩ => ⟨S8192x64, .f32⟩
  | .hbm, ⟨63, _⟩ => ⟨S8192x32, .f32⟩
  | .hbm, ⟨64, _⟩ => ⟨S8192x32, .f32⟩
  | .hbm, ⟨65, _⟩ => ⟨S1x32, .f32⟩
  | .hbm, ⟨66, _⟩ => ⟨S8192x32, .f32⟩
  | .hbm, ⟨67, _⟩ => ⟨S8192x32, .f32⟩
  | .hbm, ⟨68, _⟩ => ⟨S512x16x32, .f32⟩
  | .hbm, ⟨69, _⟩ => ⟨S1x512x1x16x1x32, .f32⟩
  | .hbm, ⟨70, _⟩ => ⟨S1x512x1x16x1x32, .f32⟩
  | .hbm, ⟨71, _⟩ => ⟨S512x16x32, .f32⟩
  | .hbm, ⟨72, _⟩ => ⟨S_, .f32⟩
  | .hbm, ⟨73, _⟩ => ⟨S512x32, .f32⟩
  | .hbm, ⟨74, _⟩ => ⟨S512x1x32, .f32⟩
  | .hbm, ⟨75, _⟩ => ⟨S_, .f32⟩
  | .hbm, ⟨76, _⟩ => ⟨S512x1x32, .f32⟩
  | .hbm, ⟨77, _⟩ => ⟨S512x1x32, .f32⟩
  | .hbm, ⟨78, _⟩ => ⟨S512x32x1, .f32⟩
  | .hbm, ⟨79, _⟩ => ⟨S512x32x1x1, .f32⟩
  | _, _ => ⟨S512x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_c_0 : Ref sig .tc := ⟨.hbm, 27, rfl⟩
abbrev main_v17 : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call0_cst : Ref sig .tc := ⟨.hbm, 52, rfl⟩
abbrev main_call0_v0 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call1_cst : Ref sig .tc := ⟨.hbm, 60, rfl⟩
abbrev main_call1_v0 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_4 : Ref sig .tc := ⟨.hbm, 72, rfl⟩
abbrev main_v54 : Ref sig .tc := ⟨.hbm, 73, rfl⟩
abbrev main_v55 : Ref sig .tc := ⟨.hbm, 74, rfl⟩
abbrev main_cst_5 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩

abbrev nD : Nat := 1
abbrev τ : Topo := Topo.v7x

variable {F : FTy → Type} [FloatOps F]

class Facts₀ : Prop where
  shapeCasts_S512x16x128_S8192x128 : S512x16x128.ShapeCasts S8192x128
  bcast_S_S512 : S_.BroadcastsInDim S512 (![] : Fin 0 → Fin S512.rank)
  bcast_S512_S512x1x1_0 : S512.BroadcastsInDim S512x1x1 (![0] : Fin 1 → Fin S512x1x1.rank)
  bcast_S16_S1x16x1_1 : S16.BroadcastsInDim S1x16x1 (![1] : Fin 1 → Fin S1x16x1.rank)
  bcast_S512x1x1_S512x16x1_0_1_2 : S512x1x1.BroadcastsInDim S512x16x1 (![0, 1, 2] : Fin 3 → Fin S512x16x1.rank)
  bcast_S1x16x1_S512x16x1_0_1_2 : S1x16x1.BroadcastsInDim S512x16x1 (![0, 1, 2] : Fin 3 → Fin S512x16x1.rank)
  bcast_S16_S1x1x16_2 : S16.BroadcastsInDim S1x1x16 (![2] : Fin 1 → Fin S1x1x16.rank)
  bcast_S512x1x1_S512x1x16_0_1_2 : S512x1x1.BroadcastsInDim S512x1x16 (![0, 1, 2] : Fin 3 → Fin S512x1x16.rank)
  bcast_S1x1x16_S512x1x16_0_1_2 : S1x1x16.BroadcastsInDim S512x1x16 (![0, 1, 2] : Fin 3 → Fin S512x1x16.rank)
  bcast_S_S8192x8192 : S_.BroadcastsInDim S8192x8192 (![] : Fin 0 → Fin S8192x8192.rank)
  bcast_S_S512x16x1 : S_.BroadcastsInDim S512x16x1 (![] : Fin 0 → Fin S512x16x1.rank)
  bcast_S_S512x1x16 : S_.BroadcastsInDim S512x1x16 (![] : Fin 0 → Fin S512x1x16.rank)
  bcast_S512x16x1_S512x16x16_0_1_2 : S512x16x1.BroadcastsInDim S512x16x16 (![0, 1, 2] : Fin 3 → Fin S512x16x16.rank)
  bcast_S512x1x16_S512x16x16_0_1_2 : S512x1x16.BroadcastsInDim S512x16x16 (![0, 1, 2] : Fin 3 → Fin S512x16x16.rank)
  bcast_S512x16x16_S512x16x16x1_0_1_2 : S512x16x16.BroadcastsInDim S512x16x16x1 (![0, 1, 2] : Fin 3 → Fin S512x16x16x1.rank)
  concatenates_S512x16x16x1_S512x16x16x1_S512x16x16x2_d3 : Shape.Concatenates [S512x16x16x1, S512x16x16x1] S512x16x16x2 3
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  shapeCasts_S8192x32_S512x16x32 : S8192x32.ShapeCasts S512x16x32
  shapeCasts_S512x16x32_S1x512x1x16x1x32 : S512x16x32.ShapeCasts S1x512x1x16x1x32
  bcast_S1x512x1x16x1x32_S1x512x1x16x1x32_0_1_2_3_4_5 : S1x512x1x16x1x32.BroadcastsInDim S1x512x1x16x1x32 (![0, 1, 2, 3, 4, 5] : Fin 6 → Fin S1x512x1x16x1x32.rank)
  shapeCasts_S1x512x1x16x1x32_S512x16x32 : S1x512x1x16x1x32.ShapeCasts S512x16x32
  reducesTo_S512x16x32_S512x32_d1 : S512x16x32.ReducesTo [1] S512x32
  h_S_ : 0 < S_.numel
  bcast_S512x32_S512x1x32_0_2 : S512x32.BroadcastsInDim S512x1x32 (![0, 2] : Fin 2 → Fin S512x1x32.rank)
  bcast_S_S512x1x32 : S_.BroadcastsInDim S512x1x32 (![] : Fin 0 → Fin S512x1x32.rank)
  transposes_S512x1x32_S512x32x1_0_2_1 : S512x1x32.Transposes [0, 2, 1] S512x32x1
  shapeCasts_S512x32x1_S512x32x1x1 : S512x32x1.ShapeCasts S512x32x1x1
  scatter_S8192x8192_S512x16x16x2_S512x16x16_n_01_01_3_wf : ScatterDims.WF S8192x8192 S512x16x16x2 S512x16x16 [] [0, 1] [0, 1] 3
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []
  dot_S8192x128_S128x64_S8192x64_1_0_0_1_n_n_wf : DotDims.WF S8192x128 S128x64 S8192x64 [1] [0] [0] [1] [] []
  dot_S8192x8192_S8192x64_S8192x64_1_0_0_1_n_n_wf : DotDims.WF S8192x8192 S8192x64 S8192x64 [1] [0] [0] [1] [] []
  dot_S8192x64_S64x32_S8192x32_1_0_0_1_n_n_wf : DotDims.WF S8192x64 S64x32 S8192x32 [1] [0] [0] [1] [] []
  dot_S8192x8192_S8192x32_S8192x32_1_0_0_1_n_n_wf : DotDims.WF S8192x8192 S8192x32 S8192x32 [1] [0] [0] [1] [] []

variable [Facts₀]

def scatter_S8192x8192_S512x16x16x2_S512x16x16_n_01_01_3 : ScatterDims S8192x8192 S512x16x16x2 S512x16x16 where
  updateWindowDims := []
  insertedWindowDims := [0, 1]
  scatterDimsToOperandDims := [0, 1]
  indexVectorDim := 3
  wf := scatter_S8192x8192_S512x16x16x2_S512x16x16_n_01_01_3_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf

class Facts : Prop extends Facts₀ where

variable [Facts]
-- ==== Proof.GcnSpec.lean ====
/-
  The mathematics both programs compute, stated once and over plain index types, with no program imported.

  A batch of 512 graphs of 16 nodes each.  For ONE graph, with node features `x` (16 × 128) and adjacency `a`
  (16 × 16), a graph-convolution layer is `a · (h · W) + β`: first every node's features are mapped by the weight
  matrix (`lin`), then every node takes the `a`-weighted sum of its OWN graph's nodes and the bias is added
  (`mix`).  Three such layers, the first two followed by `max · 0`, give a 16 × 32 array (`layers`), and the
  result for the graph is the mean over its 16 nodes, column by column (`nodeMean`).

  The kernel multiplies by a block-diagonal matrix built from 16 graphs at a time, the reference by ONE block-diagonal
  matrix of all 512 graphs; both are sums in which every term outside the row's own block has the factor zero.
  `sum_blockdiag` is that fact: over `Fin R` with `R = 16 · n`, a sum whose terms vanish off block `g` is the sum of
  the block's sixteen terms.  It is stated for any additive commutative monoid, and used on the extended reals, where
  `0 · y = 0` for EVERY `y`, infinite ones included, so that no finiteness is needed to drop those terms.

  The two programs also differ in how they take the mean: the kernel sums the products with the constant `κ` whose
  binary32 word is `0x3D800000` (that is `2⁻⁴`), the reference adds up from zero and divides by the constant whose word
  is `0x41800000` (that is `16`).  `nodeMean_eq_div`: these agree on the extended reals, because a NONNEGATIVE REAL factor
  distributes over every extended-real sum.
-/
import Idealize.ShloMosaic.PureOps.Ideal
import Idealize.ShloMosaic.Lib.ValueIdx

noncomputable section

namespace Cert.Gcn

open Idealize.ShloMosaic Idealize.ShloMosaic.ValueIdx

/-! ## One graph -/

/-- `h · W`: each of the 16 nodes' `K` features mapped to `C`. -/
def lin {K C : Nat} (h : Fin 16 → Fin K → EReal) (W : Fin K → Fin C → EReal) : Fin 16 → Fin C → EReal :=
  fun i c => ∑ k : Fin K, h i k * W k c

/-- `a · y + β`: node `i` takes the `a i`-weighted sum of the graph's nodes, plus the bias. -/
def mix {C : Nat} (a : Fin 16 → Fin 16 → EReal) (y : Fin 16 → Fin C → EReal) (β : Fin C → EReal) :
    Fin 16 → Fin C → EReal :=
  fun i c => (∑ j : Fin 16, a i j * y j c) + β c

/-- `max · 0`, entry by entry. -/
def relu {C : Nat} (y : Fin 16 → Fin C → EReal) : Fin 16 → Fin C → EReal := fun i c => max (y i c) 0

/-- The three layers of one graph: 128 → 128 → 64 → 32 features, the first two rectified. -/
def layers (x : Fin 16 → Fin 128 → EReal) (a : Fin 16 → Fin 16 → EReal)
    (W1 : Fin 128 → Fin 128 → EReal) (b1 : Fin 128 → EReal) (W2 : Fin 128 → Fin 64 → EReal) (b2 : Fin 64 → EReal)
    (W3 : Fin 64 → Fin 32 → EReal) (b3 : Fin 32 → EReal) : Fin 16 → Fin 32 → EReal :=
  mix a (lin (relu (mix a (lin (relu (mix a (lin x W1) b1)) W2) b2)) W3) b3

/-- The constant the kernel averages with: the binary32 word `0x3D800000`, read at the ideal values. -/
def κ : EReal := Ideal.ofBits .f32 0x3D800000#32

/-- The mean over the 16 nodes, as the sum of the products with `κ`. -/
def nodeMean (h : Fin 16 → Fin 32 → EReal) (c : Fin 32) : EReal := ∑ i : Fin 16, κ * h i c

/-! ## The whole batch -/

/-- Graph `b`'s result in column `c`, from the eight argument arrays. -/
def resultAt (x0 : (⟨3, ![512, 16, 128]⟩ : Shape).Idx → EReal) (x1 : (⟨3, ![512, 16, 16]⟩ : Shape).Idx → EReal)
    (x2 : (⟨2, ![128, 128]⟩ : Shape).Idx → EReal) (x3 : (⟨1, ![128]⟩ : Shape).Idx → EReal)
    (x4 : (⟨2, ![128, 64]⟩ : Shape).Idx → EReal) (x5 : (⟨1, ![64]⟩ : Shape).Idx → EReal)
    (x6 : (⟨2, ![64, 32]⟩ : Shape).Idx → EReal) (x7 : (⟨1, ![32]⟩ : Shape).Idx → EReal)
    (b : Fin 512) (c : Fin 32) : EReal :=
  nodeMean (layers (fun n k => x0 (ix3 b n k)) (fun n j => x1 (ix3 b n j)) (fun k d => x2 (ix2 k d)) (fun d => x3 (ix1 d))
    (fun k d => x4 (ix2 k d)) (fun d => x5 (ix1 d)) (fun k d => x6 (ix2 k d)) (fun d => x7 (ix1 d))) c

/-- The result array, 512 × 32 × 1 × 1. -/
def result (x0 : (⟨3, ![512, 16, 128]⟩ : Shape).Idx → EReal) (x1 : (⟨3, ![512, 16, 16]⟩ : Shape).Idx → EReal)
    (x2 : (⟨2, ![128, 128]⟩ : Shape).Idx → EReal) (x3 : (⟨1, ![128]⟩ : Shape).Idx → EReal)
    (x4 : (⟨2, ![128, 64]⟩ : Shape).Idx → EReal) (x5 : (⟨1, ![64]⟩ : Shape).Idx → EReal)
    (x6 : (⟨2, ![64, 32]⟩ : Shape).Idx → EReal) (x7 : (⟨1, ![32]⟩ : Shape).Idx → EReal) :
    (⟨4, ![512, 32, 1, 1]⟩ : Shape).Idx → EReal :=
  fun i => resultAt x0 x1 x2 x3 x4 x5 x6 x7 ⟨(i 0).val, (i 0).isLt⟩ ⟨(i 1).val, (i 1).isLt⟩

theorem result_ix4 (x0 : (⟨3, ![512, 16, 128]⟩ : Shape).Idx → EReal) (x1 : (⟨3, ![512, 16, 16]⟩ : Shape).Idx → EReal)
    (x2 : (⟨2, ![128, 128]⟩ : Shape).Idx → EReal) (x3 : (⟨1, ![128]⟩ : Shape).Idx → EReal)
    (x4 : (⟨2, ![128, 64]⟩ : Shape).Idx → EReal) (x5 : (⟨1, ![64]⟩ : Shape).Idx → EReal)
    (x6 : (⟨2, ![64, 32]⟩ : Shape).Idx → EReal) (x7 : (⟨1, ![32]⟩ : Shape).Idx → EReal)
    (b : Fin 512) (c : Fin 32) (d e : Fin 1) :
    result x0 x1 x2 x3 x4 x5 x6 x7 (ix4 b c d e) = resultAt x0 x1 x2 x3 x4 x5 x6 x7 b c := rfl

/-! ## A sum against a block-diagonal matrix keeps its own block -/

/-- Row `i` of block `g`, among `R = 16 · n` rows. -/
def row {n R : Nat} (hR : R = 16 * n) (g : Fin n) (i : Fin 16) : Fin R :=
  ⟨16 * g.val + i.val, by have := g.isLt; have := i.isLt; omega⟩

theorem row_div {n R : Nat} (hR : R = 16 * n) (g : Fin n) (i : Fin 16) : (row hR g i).val / 16 = g.val := by
  have := i.isLt; show (16 * g.val + i.val) / 16 = g.val; omega

theorem row_mod {n R : Nat} (hR : R = 16 * n) (g : Fin n) (i : Fin 16) : (row hR g i).val % 16 = i.val := by
  have := i.isLt; show (16 * g.val + i.val) % 16 = i.val; omega

/-- Row `i` of graph `g` among the 256 rows of one grid point's 16 graphs. -/
abbrev krow (g : Fin 16) (i : Fin 16) : Fin 256 := row (n := 16) (R := 256) (by norm_num) g i

/-- Row `i` of graph `b` among the 8192 rows of the whole batch. -/
abbrev rrow (b : Fin 512) (i : Fin 16) : Fin 8192 := row (n := 512) (R := 8192) (by norm_num) b i

/-- A sum over `R = 16 · n` indices whose terms are zero off block `g` is the sum over the block. -/
theorem sum_blockdiag {M : Type*} [AddCommMonoid M] {n R : Nat} (hR : R = 16 * n) (g : Fin n) (f : Fin R → M) :
    (∑ k : Fin R, if k.val / 16 = g.val then f k else 0) = ∑ j : Fin 16, f (row hR g j) := by
  classical
  rw [← Finset.sum_filter]
  symm
  refine Finset.sum_nbij (fun j => row hR g j) ?_ ?_ ?_ ?_
  · intro j _
    exact Finset.mem_filter.mpr ⟨Finset.mem_univ _, row_div hR g j⟩
  · intro j₁ _ j₂ _ h
    have h' : 16 * g.val + j₁.val = 16 * g.val + j₂.val := congrArg Fin.val h
    exact Fin.ext (by omega)
  · intro k hk
    have hk' : k.val / 16 = g.val := by simpa using hk
    refine ⟨⟨k.val % 16, Nat.mod_lt _ (by norm_num)⟩, by simp, Fin.ext ?_⟩
    show 16 * g.val + k.val % 16 = k.val
    omega
  · intro j _
    rfl

/-! ## The mean, as a product with `2⁻⁴` or as a quotient by `16` -/

/-- The kernel's constant is the real `1/16`. -/
theorem κ_eq : κ = ((1 / 16 : ℝ) : EReal) := by
  unfold κ
  simp [Ideal.ofBits, Ideal.ieee, -EReal.coe_mul]; norm_num

/-- The reference's divisor is the real `16`. -/
theorem sixteen_eq : Ideal.ofBits .f32 0x41800000#32 = ((16 : ℝ) : EReal) := by
  simp [Ideal.ofBits, Ideal.ieee, -EReal.coe_mul]; norm_num

/-- A nonnegative real factor distributes over every finite sum of extended reals, infinite terms included. -/
theorem coe_mul_sum_of_nonneg (a : ℝ) (ha : 0 ≤ a) {ι : Type*} (s : Finset ι) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (by exact_mod_cast ha) (EReal.coe_ne_top a), ih]

/-- The sum of the products with `κ` is the sum from zero divided by sixteen: a nonnegative real factor distributes
    over a sum of extended reals. -/
theorem nodeMean_eq_div (h : Fin 16 → Fin 32 → EReal) (c : Fin 32) :
    nodeMean h c = Ideal.div (0 + ∑ i : Fin 16, h i c) (Ideal.ofBits .f32 0x41800000#32) := by
  rw [sixteen_eq, Ideal.div_coe (by norm_num : (16 : ℝ) ≠ 0), zero_add, mul_comm,
    coe_mul_sum_of_nonneg _ (by norm_num)]
  unfold nodeMean
  rw [κ_eq]

end Cert.Gcn

end
-- ==== Proof.KernelStages.lean ====
/-
  The kernel's body, named piece by piece.

  One grid point handles 16 graphs as 256 rows.  `sameGraph` is the 256 × 256 mask that is one exactly where the row and the
  column belong to the same graph (both indices divided by 16, rounding down, agree; the body spells the rounded-down
  quotient through the truncating division and a sign correction that never fires on nonnegative indices).  `blockDiag` keeps the
  tiled adjacency rows under that mask and puts zero elsewhere: the block-diagonal matrix of the 16 adjacencies.  `hidden1` and
  `hidden2` are the first two layers — features times weights, then `blockDiag` times that, plus the bias row, then `max · 0` —
  and `lastMix` the third layer's two products.  `ownRows` is the 16 × 256 mask that is one where column `r` is a row of graph
  `g`, and `averaging` holds the constant with word `0x3D800000` there and zero elsewhere.

  `pay7_eq`, `pay1_eq`, `out_eq`: the generated payloads, and the block the point stores, are these pieces.  Each holds by
  unfolding the definitions (the one store through the whole-block rectangle leaves its payload; a load through it reads
  the block).
-/
import proofs.«102764_g6493990551891_cont_9to1c4b_81_2_alg».proof.Proof.Gen.KernelIdeal.Frame
import Idealize.ShloMosaic.Lib.Pipeline.Value

noncomputable section

namespace Cert.KernelIdeal.Block

open Cert.KernelIdeal Cert.KernelIdeal.Gen Idealize.ShloMosaic

variable {F : FTy → Type} [FloatOps F]

/-- One where row and column are rows of the same graph. -/
def sameGraph : IVec S256x256 1 :=
  cmpi .eq k0_pay4
    (select
      (andi
        (cmpi .ne k0_pay6
          (broadcast S256x256 (Scalar.subi (Scalar.extui (Scalar.cmpi .sgt 16#32 0#32)) (Scalar.extui (Scalar.cmpi .slt 16#32 0#32)))))
        (cmpi .ne (remsi (iota .tc S256x256 32 [1] iota_S256x256_d1_w32) (broadcast S256x256 16#32)) (broadcast S256x256 0#32)))
      (subi k0_pay5 (broadcast S256x256 1#32)) k0_pay5)

/-- The tiled adjacency rows under `sameGraph`, zero elsewhere. -/
def blockDiag (v4 : FVec F S256x256 .f32) : FVec F S256x256 .f32 :=
  select sameGraph v4 (broadcast S256x256 (Scalar.ofBits .f32 0x00000000#32))

/-- The first layer: `max (blockDiag · (rows · W1) + bias) 0`. -/
def hidden1 (bd : FVec F S256x256 .f32) (v1 : FVec F S256x128 .f32) (v58 : Vec F S128x128 .f32) (v61 : Vec F S1x128 .f32) :
    FVec F S256x128 .f32 :=
  maximumf
    (addf (matmul dot_S256x256_S256x128_S256x128_1_0_0_1_n_n none bd (matmul dot_S256x128_S128x128_S256x128_1_0_0_1_n_n none v1 v58 (constant S256x128 .f32 0x00000000#32)) (constant S256x128 .f32 0x00000000#32))
      (broadcastTo S256x128 (shapeCast S1x128 v61 shapeCasts_S1x128_S1x128) broadcasts_S1x128_S256x128))
    (broadcast S256x128 (Scalar.ofBits .f32 0x00000000#32))

/-- The second layer. -/
def hidden2 (bd : FVec F S256x256 .f32) (h1 : FVec F S256x128 .f32) (v67 : Vec F S128x64 .f32) (v70 : Vec F S1x64 .f32) :
    FVec F S256x64 .f32 :=
  maximumf
    (addf (matmul dot_S256x256_S256x64_S256x64_1_0_0_1_n_n none bd (matmul dot_S256x128_S128x64_S256x64_1_0_0_1_n_n none h1 v67 (constant S256x64 .f32 0x00000000#32)) (constant S256x64 .f32 0x00000000#32))
      (broadcastTo S256x64 (shapeCast S1x64 v70 shapeCasts_S1x64_S1x64) broadcasts_S1x64_S256x64))
    (broadcast S256x64 (Scalar.ofBits .f32 0x00000000#32))

/-- The third layer's two products (its bias is added where the mean is taken). -/
def lastMix (bd : FVec F S256x256 .f32) (h2 : FVec F S256x64 .f32) (v76 : Vec F S64x32 .f32) : FVec F S256x32 .f32 :=
  matmul dot_S256x256_S256x32_S256x32_1_0_0_1_n_n none bd (matmul dot_S256x64_S64x32_S256x32_1_0_0_1_n_n none h2 v76 (constant S256x32 .f32 0x00000000#32)) (constant S256x32 .f32 0x00000000#32)

/-- One where column `r` is a row of graph `g`. -/
def ownRows : IVec S16x256 1 :=
  cmpi .eq (iota .tc S16x256 32 [0] iota_S16x256_d0_w32)
    (select
      (andi
        (cmpi .ne
          (subi (extui 32 (cmpi .sgt (iota .tc S16x256 32 [1] iota_S16x256_d1_w32) (broadcast S16x256 0#32)) natLt_1_32)
            (extui 32 (cmpi .slt (iota .tc S16x256 32 [1] iota_S16x256_d1_w32) (broadcast S16x256 0#32)) natLt_1_32))
          (broadcast S16x256 (Scalar.subi (Scalar.extui (Scalar.cmpi .sgt 16#32 0#32)) (Scalar.extui (Scalar.cmpi .slt 16#32 0#32)))))
        (cmpi .ne (remsi (iota .tc S16x256 32 [1] iota_S16x256_d1_w32) (broadcast S16x256 16#32)) (broadcast S16x256 0#32)))
      (subi (divsi (iota .tc S16x256 32 [1] iota_S16x256_d1_w32) (broadcast S16x256 16#32)) (broadcast S16x256 1#32))
      (divsi (iota .tc S16x256 32 [1] iota_S16x256_d1_w32) (broadcast S16x256 16#32)))

/-- The averaging matrix: the constant on a graph's own rows, zero elsewhere. -/
def averaging : FVec F S16x256 .f32 :=
  select ownRows (broadcast S16x256 (Scalar.ofBits .f32 0x3D800000#32)) (broadcast S16x256 (Scalar.ofBits .f32 0x00000000#32))

/-- The layers' payload is the three layers over `blockDiag` of the tiled adjacency. -/
theorem pay7_eq (v1 : FVec F S256x128 .f32) (v4 : FVec F S256x256 .f32) (v58 : Vec F S128x128 .f32) (v61 : Vec F S1x128 .f32)
    (v67 : Vec F S128x64 .f32) (v70 : Vec F S1x64 .f32) (v76 : Vec F S64x32 .f32) :
    k0_pay7 v1 v4 k0_pay4 (iota .tc S256x256 32 [1] iota_S256x256_d1_w32) 16#32 k0_pay5 k0_pay6
        (Scalar.extui (Scalar.cmpi .sgt 16#32 0#32)) v58 v61 v67 v70 v76
      = lastMix (blockDiag v4) (hidden2 (blockDiag v4) (hidden1 (blockDiag v4) v1 v58 v61) v67 v70) v76 := rfl

/-- The stored payload is the averaging matrix times the third layer with its bias row added. -/
theorem pay1_eq (v78 : FVec F S256x32 .f32) (v79 : Vec F S1x32 .f32) :
    k0_pay1 v78 v79
      = matmul dot_S16x256_S256x32_S16x32_1_0_0_1_n_n none averaging
          (addf v78 (broadcastTo S256x32 (shapeCast S1x32 v79 shapeCasts_S1x32_S1x32) broadcasts_S1x32_S256x32))
          (constant S16x32 .f32 0x00000000#32) := rfl

/-- The offsets of a whole-block rectangle of rank 2, however they are spelt, are zero. -/
theorem zeros2 : (![0, 0] : Fin 2 → Nat) = fun _ => 0 := funext fun a => by fin_cases a <;> rfl

/-- The same at rank 3. -/
theorem zeros3 : (![0, 0, 0] : Fin 3 → Nat) = fun _ => 0 := funext fun a => by fin_cases a <;> rfl

/-- What a grid point leaves in its output block, from its eight input blocks. -/
theorem out_eq (x0 : Vec F S16x16x128 .f32) (x1 : Vec F S16x16x16 .f32) (x2 : Vec F S128x128 .f32) (x3 : Vec F S1x128 .f32)
    (x4 : Vec F S128x64 .f32) (x5 : Vec F S1x64 .f32) (x6 : Vec F S64x32 .f32) (x7 : Vec F S1x32 .f32) :
    out0_8 x0 x1 x2 x3 x4 x5 x6 x7
      = matmul dot_S16x256_S256x32_S16x32_1_0_0_1_n_n none averaging
          (addf (lastMix (blockDiag (k0_pay3 x1))
              (hidden2 (blockDiag (k0_pay3 x1)) (hidden1 (blockDiag (k0_pay3 x1)) (k0_pay2 x0) x2 x3) x4 x5) x6)
            (broadcastTo S256x32 (shapeCast S1x32 x7 shapeCasts_S1x32_S1x32) broadcasts_S1x32_S256x32))
          (constant S16x32 .f32 0x00000000#32) := by
  unfold out0_8
  rw [View.canon_unit_zero zeros2]
  simp only [View.ld_unit_zero (S := S16x16x128) zeros3, View.ld_unit_zero (S := S16x16x16) zeros3,
    View.ld_unit_zero (S := S128x128) zeros2, View.ld_unit_zero (S := S1x128) zeros2, View.ld_unit_zero (S := S128x64) zeros2,
    View.ld_unit_zero (S := S1x64) zeros2, View.ld_unit_zero (S := S64x32) zeros2, View.ld_unit_zero (S := S1x32) zeros2]
  rw [pay7_eq, pay1_eq]

end Cert.KernelIdeal.Block

end
-- ==== Proof.KernelMask.lean ====
/-
  The two masks of the kernel's body, read at an index.

  Every index the body divides is an iota value between 0 and 255, so the truncating division by 16 is already the
  rounded-down quotient, the sign of the dividend is never that of a negative number, and the body's correction (subtract one
  where the signs differ and the remainder is not zero) never fires: each mask compares plain quotients by 16.
  `sameGraph` at row `r`, column `k` is one exactly when `k / 16 = r / 16`; `ownRows` at graph `g`, column `r` is one exactly when
  `r / 16 = g`.  Hence `blockDiag` keeps its argument on a row's own sixteen columns and is zero on the rest, and `averaging`
  holds the constant `κ` on a graph's own sixteen rows and zero on the rest — read at the ideal values, where the word
  `0x00000000` is the extended real zero.
-/
import proofs.«102764_g6493990551891_cont_9to1c4b_81_2_alg».proof.Proof.GcnSpec
import proofs.«102764_g6493990551891_cont_9to1c4b_81_2_alg».proof.Proof.KernelStages
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-- The body's rounded-down quotient by 16 of a 32-bit word: the truncating quotient, less one where the sign of the
    word differs from the sign of 16 and the remainder is not zero. -/
private def floorDiv16 (x : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt 16#32 0#32)) (Scalar.extui (Scalar.cmpi .slt 16#32 0#32))))
      (IntOp.cmpi .ne (IntOp.remsi .vector x 16#32) 0#32))
    (IntOp.subi (IntOp.divsi .vector x 16#32) 1#32)
    (IntOp.divsi .vector x 16#32)

/-- On the word of a number below 256 the body's quotient is the word of the plain quotient by 16. -/
private theorem floorDiv16_word : ∀ n : Fin 256, floorDiv16 (BitVec.ofNat 32 n.val) = BitVec.ofNat 32 (n.val / 16) := by
  decide +kernel

/-- Two words of numbers below `2 ^ 32` compare equal exactly when the numbers are equal. -/
private theorem cmpi_eq_word (a b : Nat) (ha : a < 2 ^ 32) (hb : b < 2 ^ 32) :
    IntOp.cmpi .eq (BitVec.ofNat 32 a) (BitVec.ofNat 32 b) = if b = a then 1#1 else 0#1 := by
  show BitVec.ofBool (BitVec.ofNat 32 a == BitVec.ofNat 32 b) = _
  by_cases h : b = a
  · subst h
    rw [if_pos rfl, beq_self_eq_true]
    rfl
  · have hne : BitVec.ofNat 32 a ≠ BitVec.ofNat 32 b := by
      intro e
      have := congrArg BitVec.toNat e
      simp only [BitVec.toNat_ofNat] at this
      rw [Nat.mod_eq_of_lt ha, Nat.mod_eq_of_lt hb] at this
      exact h this.symm
    rw [if_neg h, beq_false_of_ne hne]
    rfl

/-- The row iota of the 256 × 256 block reads the row. -/
private theorem iotaRow (r k : Fin 256) :
    iota .tc S256x256 32 [0] iota_S256x256_d0_w32 (ix2 r k) = BitVec.ofNat 32 r.val :=
  iota_single_apply .tc S256x256 32 0 iota_S256x256_d0_w32 (ix2 r k)

/-- The column iota of the 256 × 256 block reads the column. -/
private theorem iotaCol (r k : Fin 256) :
    iota .tc S256x256 32 [1] iota_S256x256_d1_w32 (ix2 r k) = BitVec.ofNat 32 k.val :=
  iota_single_apply .tc S256x256 32 1 iota_S256x256_d1_w32 (ix2 r k)

/-- The row iota of the 16 × 256 block reads the graph. -/
private theorem iotaGraph (g : Fin 16) (r : Fin 256) :
    iota .tc S16x256 32 [0] iota_S16x256_d0_w32 (ix2 g r) = BitVec.ofNat 32 g.val :=
  iota_single_apply .tc S16x256 32 0 iota_S16x256_d0_w32 (ix2 g r)

/-- The column iota of the 16 × 256 block reads the column. -/
private theorem iotaNode (g : Fin 16) (r : Fin 256) :
    iota .tc S16x256 32 [1] iota_S16x256_d1_w32 (ix2 g r) = BitVec.ofNat 32 r.val :=
  iota_single_apply .tc S16x256 32 1 iota_S16x256_d1_w32 (ix2 g r)

/-- Row `r` and column `k` are rows of the same graph exactly when their quotients by 16 agree. -/
theorem sameGraph_apply (r k : Fin 256) : sameGraph (ix2 r k) = if k.val / 16 = r.val / 16 then 1#1 else 0#1 := by
  have h : sameGraph (ix2 r k)
      = IntOp.cmpi .eq (floorDiv16 (iota .tc S256x256 32 [0] iota_S256x256_d0_w32 (ix2 r k)))
          (floorDiv16 (iota .tc S256x256 32 [1] iota_S256x256_d1_w32 (ix2 r k))) := rfl
  rw [h, iotaRow, iotaCol, floorDiv16_word, floorDiv16_word]
  exact cmpi_eq_word _ _ (by have := r.isLt; omega) (by have := k.isLt; omega)

/-- Column `r` is a row of graph `g` exactly when its quotient by 16 is `g`. -/
theorem ownRows_apply (g : Fin 16) (r : Fin 256) : ownRows (ix2 g r) = if r.val / 16 = g.val then 1#1 else 0#1 := by
  have h : ownRows (ix2 g r)
      = IntOp.cmpi .eq (iota .tc S16x256 32 [0] iota_S16x256_d0_w32 (ix2 g r))
          (floorDiv16 (iota .tc S16x256 32 [1] iota_S16x256_d1_w32 (ix2 g r))) := rfl
  rw [h, iotaGraph, iotaNode, floorDiv16_word]
  exact cmpi_eq_word _ _ (by have := g.isLt; omega) (by have := r.isLt; omega)

/-- On row `i` of graph `g` the block-diagonal matrix keeps its argument on graph `g`'s columns and is zero elsewhere. -/
theorem blockDiag_apply (v4 : FVec Ideal S256x256 .f32) (g i : Fin 16) (k : Fin 256) :
    blockDiag v4 (ix2 (Cert.Gcn.krow g i) k) = if k.val / 16 = g.val then v4 (ix2 (Cert.Gcn.krow g i) k) else 0 := by
  have h : blockDiag v4 (ix2 (Cert.Gcn.krow g i) k)
      = Scalar.select (sameGraph (ix2 (Cert.Gcn.krow g i) k)) (v4 (ix2 (Cert.Gcn.krow g i) k))
          (Ideal.ofBits .f32 0x00000000#32) := rfl
  rw [h, sameGraph_apply, Cert.Gcn.row_div, Ideal.ofBits_zero_f32]
  by_cases hk : k.val / 16 = g.val
  · rw [if_pos hk, if_pos hk, select_one]
  · rw [if_neg hk, if_neg hk, select_zero]

/-- The averaging matrix holds `κ` on graph `g`'s rows and zero elsewhere. -/
theorem averaging_apply (g : Fin 16) (r : Fin 256) :
    averaging (F := Ideal) (ix2 g r) = if r.val / 16 = g.val then Cert.Gcn.κ else 0 := by
  have h : averaging (F := Ideal) (ix2 g r)
      = Scalar.select (ownRows (ix2 g r)) (Ideal.ofBits .f32 0x3D800000#32) (Ideal.ofBits .f32 0x00000000#32) := rfl
  rw [h, ownRows_apply, Ideal.ofBits_zero_f32]
  unfold Cert.Gcn.κ
  by_cases hr : r.val / 16 = g.val
  · rw [if_pos hr, if_pos hr, select_one]
  · rw [if_neg hr, if_neg hr, select_zero]

end Cert.KernelIdeal.Block

end
-- ==== Proof.KernelLayout.lean ====
/-
  The body's layout operations, read at an index.

  The 16 × 16 × 128 feature block is flattened to 256 × 128: row `16 g + i` is node `i` of graph `g`.  The 16 × 16 × 16
  adjacency block is flattened to 256 × 16 the same way and then laid sixteen times side by side, so that column `k` of the
  256 × 256 result holds column `k mod 16` of the row's own adjacency row.  Each bias reaches the body as one row, which is
  repeated down the 256 rows.
-/
import proofs.«102764_g6493990551891_cont_9to1c4b_81_2_alg».proof.Proof.GcnSpec
import proofs.«102764_g6493990551891_cont_9to1c4b_81_2_alg».proof.Proof.Gen.KernelIdeal.Skeleton
import Idealize.ShloMosaic.Lib.ValueIdx
import Idealize.ShloMosaic.Lib.ValueLayout
import Idealize.ShloMosaic.Lib.Pipeline.Value

noncomputable section

namespace Cert.KernelIdeal.Block

open Cert.KernelIdeal Cert.KernelIdeal.Gen Idealize.ShloMosaic Idealize.ShloMosaic.ValueIdx

variable {F : FTy → Type} [FloatOps F]

/-- Row `16 g + i` of the flattened features is node `i` of graph `g`. -/
theorem rows_apply (x0 : Vec F S16x16x128 .f32) (g i : Fin 16) (k : Fin 128) :
    k0_pay2 x0 (ix2 (Cert.Gcn.krow g i) k) = x0 (ix3 g i k) := by
  unfold k0_pay2
  exact shapeCast_apply x0 shapeCasts_S16x16x128_S256x128 (ix2 (Cert.Gcn.krow g i) k) (ix3 g i k)
    (by rewrite [Shape.rowMajor_val_three, Shape.rowMajor_val_two]
        show (g.val * 16 + i.val) * 128 + k.val = (16 * g.val + i.val) * 128 + k.val
        omega)

/-- Row `16 g + i` of the flattened adjacency is row `i` of graph `g`'s adjacency. -/
private theorem adjRows_apply (x1 : Vec F S16x16x16 .f32) (g i c : Fin 16) :
    shapeCast S256x16 x1 shapeCasts_S16x16x16_S256x16 (ix2 (Cert.Gcn.krow g i) c) = x1 (ix3 g i c) :=
  shapeCast_apply x1 shapeCasts_S16x16x16_S256x16 (ix2 (Cert.Gcn.krow g i) c) (ix3 g i c)
    (by rewrite [Shape.rowMajor_val_three, Shape.rowMajor_val_two]
        show (g.val * 16 + i.val) * 16 + c.val = (16 * g.val + i.val) * 16 + c.val
        omega)

/-- Row `16 g + i`, column `k` of the tiled adjacency is entry `(i, k mod 16)` of graph `g`'s adjacency. -/
theorem tile_apply (x1 : Vec F S16x16x16 .f32) (g i : Fin 16) (k : Fin 256) :
    k0_pay3 x1 (ix2 (Cert.Gcn.krow g i) k) = x1 (ix3 g i ⟨k.val % 16, Nat.mod_lt _ (by norm_num)⟩) := by
  unfold k0_pay3
  refine (concatenate_replicate_apply (t := S256x256) (s₁ := S256x16) 1 16
    (shapeCast S256x16 x1 shapeCasts_S16x16x16_S256x16)
    concatenates_S256x16_S256x16_S256x16_S256x16_S256x16_S256x16_S256x16_S256x16_S256x16_S256x16_S256x16_S256x16_S256x16_S256x16_S256x16_S256x16_S256x256_d1
    rfl (ix2 (Cert.Gcn.krow g i) k) (ix2 (Cert.Gcn.krow g i) (⟨k.val % 16, Nat.mod_lt _ (by norm_num)⟩ : Fin 16)) ?_ ?_).trans ?_
  · show k.val % 16 = k.val % 16
    rfl
  · intro b hb
    match b with
    | ⟨0, _⟩ => rfl
    | ⟨1, _⟩ => exact absurd (Fin.ext rfl) hb
  · exact adjRows_apply x1 g i _

/-- The first bias row, repeated down the rows. -/
theorem bias128_apply (x3 : Vec F S1x128 .f32) (r : Fin 256) (d : Fin 128) :
    broadcastTo S256x128 (shapeCast S1x128 x3 shapeCasts_S1x128_S1x128) broadcasts_S1x128_S256x128 (ix2 r d) = x3 (ix2 0 d) := by
  rw [shapeCast_self]
  exact broadcastTo_1b_ab_apply x3 broadcasts_S1x128_S256x128 r d

/-- The second. -/
theorem bias64_apply (x5 : Vec F S1x64 .f32) (r : Fin 256) (d : Fin 64) :
    broadcastTo S256x64 (shapeCast S1x64 x5 shapeCasts_S1x64_S1x64) broadcasts_S1x64_S256x64 (ix2 r d) = x5 (ix2 0 d) := by
  rw [shapeCast_self]
  exact broadcastTo_1b_ab_apply x5 broadcasts_S1x64_S256x64 r d

/-- The third. -/
theorem bias32_apply (x7 : Vec F S1x32 .f32) (r : Fin 256) (d : Fin 32) :
    broadcastTo S256x32 (shapeCast S1x32 x7 shapeCasts_S1x32_S1x32) broadcasts_S1x32_S256x32 (ix2 r d) = x7 (ix2 0 d) := by
  rw [shapeCast_self]
  exact broadcastTo_1b_ab_apply x7 broadcasts_S1x32_S256x32 r d

end Cert.KernelIdeal.Block

end
-- ==== Proof.KernelMatmul.lean ====
/-
  The body's seven matrix products, read at an entry, at the ideal values.

  Each contracts the left operand's second axis with the right operand's first and accumulates into zero, so entry `(p, q)` of
  the product is the sum over the contracted position `k` of `l p k · r k q` — no rounding and no chunking is left at the ideal
  values.  One lemma per shape of product, each over the contraction's own index type re-indexed by `Fin K`.
-/
import proofs.«102764_g6493990551891_cont_9to1c4b_81_2_alg».proof.Proof.Gen.KernelIdeal
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-- The left operand's index of the `256x128 · 128x128` product keeps the entry's row. -/
private theorem lhs_rows_W1_0 (i : S256x128.Idx) (c : dot_S256x128_S128x128_S256x128_1_0_0_1_n_n.contr.Idx) :
    (dot_S256x128_S128x128_S256x128_1_0_0_1_n_n.lhsIdx i c 0).val = (i 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl

/-- The left operand's index of the `256x128 · 128x128` product has the contracted position as its column. -/
private theorem lhs_rows_W1_1 (i : S256x128.Idx) (c : dot_S256x128_S128x128_S256x128_1_0_0_1_n_n.contr.Idx) :
    (dot_S256x128_S128x128_S256x128_1_0_0_1_n_n.lhsIdx i c 1).val = (c ⟨0, by decide⟩).val :=
  dot_S256x128_S128x128_S256x128_1_0_0_1_n_n.lhsIdx_val_of_single rfl i c

/-- The right operand's index of the `256x128 · 128x128` product has the contracted position as its row. -/
private theorem rhs_rows_W1_0 (i : S256x128.Idx) (c : dot_S256x128_S128x128_S256x128_1_0_0_1_n_n.contr.Idx) :
    (dot_S256x128_S128x128_S256x128_1_0_0_1_n_n.rhsIdx i c 0).val = (c ⟨0, by decide⟩).val :=
  dot_S256x128_S128x128_S256x128_1_0_0_1_n_n.rhsIdx_val_of_single rfl i c

/-- The right operand's index of the `256x128 · 128x128` product keeps the entry's column. -/
private theorem rhs_rows_W1_1 (i : S256x128.Idx) (c : dot_S256x128_S128x128_S256x128_1_0_0_1_n_n.contr.Idx) :
    (dot_S256x128_S128x128_S256x128_1_0_0_1_n_n.rhsIdx i c 1).val = (i 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl

/-- `256x128 · 128x128` into zero, at an entry: the sum over the 128 contracted positions. -/
theorem mm_rows_W1 (l : FVec Ideal S256x128 .f32) (r : FVec Ideal S128x128 .f32) (p : Fin 256) (q : Fin 128) :
    matmul dot_S256x128_S128x128_S256x128_1_0_0_1_n_n none l r (constant S256x128 .f32 0x00000000#32) (ix2 p q) = ∑ k : Fin 128, l (ix2 p k) * r (ix2 k q) := by
  refine (Ideal.matmul_constant_zero_apply dot_S256x128_S128x128_S256x128_1_0_0_1_n_n none l r (ix2 p q)).trans ?_
  rw [← Equiv.sum_comp (ValueIdx.contrEquiv1 dot_S256x128_S128x128_S256x128_1_0_0_1_n_n 128 rfl rfl).symm]
  refine Finset.sum_congr rfl fun k _ => ?_
  have hk := ValueIdx.contrEquiv1_symm_val dot_S256x128_S128x128_S256x128_1_0_0_1_n_n 128 rfl rfl k
  have el : dot_S256x128_S128x128_S256x128_1_0_0_1_n_n.lhsIdx (ix2 p q) ((ValueIdx.contrEquiv1 dot_S256x128_S128x128_S256x128_1_0_0_1_n_n 128 rfl rfl).symm k) = ix2 p k := funext fun a => Fin.ext (by
    match a with
    | ⟨0, _⟩ => exact lhs_rows_W1_0 _ _
    | ⟨1, _⟩ => exact (lhs_rows_W1_1 _ _).trans hk)
  have er : dot_S256x128_S128x128_S256x128_1_0_0_1_n_n.rhsIdx (ix2 p q) ((ValueIdx.contrEquiv1 dot_S256x128_S128x128_S256x128_1_0_0_1_n_n 128 rfl rfl).symm k) = ix2 k q := funext fun a => Fin.ext (by
    match a with
    | ⟨0, _⟩ => exact (rhs_rows_W1_0 _ _).trans hk
    | ⟨1, _⟩ => exact rhs_rows_W1_1 _ _)
  rw [el, er]

/-- The left operand's index of the `256x256 · 256x128` product keeps the entry's row. -/
private theorem lhs_bd_128_0 (i : S256x128.Idx) (c : dot_S256x256_S256x128_S256x128_1_0_0_1_n_n.contr.Idx) :
    (dot_S256x256_S256x128_S256x128_1_0_0_1_n_n.lhsIdx i c 0).val = (i 0).val := by
  unfold DotDims.lhsIdx
  rw [dif_neg (show ¬(0 : Fin S256x256.rank) ∈ dot_S256x256_S256x128_S256x128_1_0_0_1_n_n.lhsBatch by decide), dif_pos (show (0 : Fin S256x256.rank) ∈ dot_S256x256_S256x128_S256x128_1_0_0_1_n_n.lhsNonContracting by decide)]
  rfl

/-- The left operand's index of the `256x256 · 256x128` product has the contracted position as its column. -/
private theorem lhs_bd_128_1 (i : S256x128.Idx) (c : dot_S256x256_S256x128_S256x128_1_0_0_1_n_n.contr.Idx) :
    (dot_S256x256_S256x128_S256x128_1_0_0_1_n_n.lhsIdx i c 1).val = (c ⟨0, by decide⟩).val :=
  dot_S256x256_S256x128_S256x128_1_0_0_1_n_n.lhsIdx_val_of_single rfl i c

/-- The right operand's index of the `256x256 · 256x128` product has the contracted position as its row. -/
private theorem rhs_bd_128_0 (i : S256x128.Idx) (c : dot_S256x256_S256x128_S256x128_1_0_0_1_n_n.contr.Idx) :
    (dot_S256x256_S256x128_S256x128_1_0_0_1_n_n.rhsIdx i c 0).val = (c ⟨0, by decide⟩).val :=
  dot_S256x256_S256x128_S256x128_1_0_0_1_n_n.rhsIdx_val_of_single rfl i c

/-- The right operand's index of the `256x256 · 256x128` product keeps the entry's column. -/
private theorem rhs_bd_128_1 (i : S256x128.Idx) (c : dot_S256x256_S256x128_S256x128_1_0_0_1_n_n.contr.Idx) :
    (dot_S256x256_S256x128_S256x128_1_0_0_1_n_n.rhsIdx i c 1).val = (i 1).val := by
  unfold DotDims.rhsIdx
  rw [dif_neg (show ¬(1 : Fin S256x128.rank) ∈ dot_S256x256_S256x128_S256x128_1_0_0_1_n_n.rhsBatch by decide), dif_pos (show (1 : Fin S256x128.rank) ∈ dot_S256x256_S256x128_S256x128_1_0_0_1_n_n.rhsNonContracting by decide)]
  rfl

/-- `256x256 · 256x128` into zero, at an entry: the sum over the 256 contracted positions. -/
theorem mm_bd_128 (l : FVec Ideal S256x256 .f32) (r : FVec Ideal S256x128 .f32) (p : Fin 256) (q : Fin 128) :
    matmul dot_S256x256_S256x128_S256x128_1_0_0_1_n_n none l r (constant S256x128 .f32 0x00000000#32) (ix2 p q) = ∑ k : Fin 256, l (ix2 p k) * r (ix2 k q) := by
  refine (Ideal.matmul_constant_zero_apply dot_S256x256_S256x128_S256x128_1_0_0_1_n_n none l r (ix2 p q)).trans ?_
  rw [← Equiv.sum_comp (ValueIdx.contrEquiv1 dot_S256x256_S256x128_S256x128_1_0_0_1_n_n 256 rfl rfl).symm]
  refine Finset.sum_congr rfl fun k _ => ?_
  have hk := ValueIdx.contrEquiv1_symm_val dot_S256x256_S256x128_S256x128_1_0_0_1_n_n 256 rfl rfl k
  have el : dot_S256x256_S256x128_S256x128_1_0_0_1_n_n.lhsIdx (ix2 p q) ((ValueIdx.contrEquiv1 dot_S256x256_S256x128_S256x128_1_0_0_1_n_n 256 rfl rfl).symm k) = ix2 p k := funext fun a => Fin.ext (by
    match a with
    | ⟨0, _⟩ => exact lhs_bd_128_0 _ _
    | ⟨1, _⟩ => exact (lhs_bd_128_1 _ _).trans hk)
  have er : dot_S256x256_S256x128_S256x128_1_0_0_1_n_n.rhsIdx (ix2 p q) ((ValueIdx.contrEquiv1 dot_S256x256_S256x128_S256x128_1_0_0_1_n_n 256 rfl rfl).symm k) = ix2 k q := funext fun a => Fin.ext (by
    match a with
    | ⟨0, _⟩ => exact (rhs_bd_128_0 _ _).trans hk
    | ⟨1, _⟩ => exact rhs_bd_128_1 _ _)
  rw [el, er]

/-- The left operand's index of the `256x128 · 128x64` product keeps the entry's row. -/
private theorem lhs_rows_W2_0 (i : S256x64.Idx) (c : dot_S256x128_S128x64_S256x64_1_0_0_1_n_n.contr.Idx) :
    (dot_S256x128_S128x64_S256x64_1_0_0_1_n_n.lhsIdx i c 0).val = (i 0).val := by
  unfold DotDims.lhsIdx
  rw [dif_neg (show ¬(0 : Fin S256x128.rank) ∈ dot_S256x128_S128x64_S256x64_1_0_0_1_n_n.lhsBatch by decide), dif_pos (show (0 : Fin S256x128.rank) ∈ dot_S256x128_S128x64_S256x64_1_0_0_1_n_n.lhsNonContracting by decide)]
  rfl

/-- The left operand's index of the `256x128 · 128x64` product has the contracted position as its column. -/
private theorem lhs_rows_W2_1 (i : S256x64.Idx) (c : dot_S256x128_S128x64_S256x64_1_0_0_1_n_n.contr.Idx) :
    (dot_S256x128_S128x64_S256x64_1_0_0_1_n_n.lhsIdx i c 1).val = (c ⟨0, by decide⟩).val :=
  dot_S256x128_S128x64_S256x64_1_0_0_1_n_n.lhsIdx_val_of_single rfl i c

/-- The right operand's index of the `256x128 · 128x64` product has the contracted position as its row. -/
private theorem rhs_rows_W2_0 (i : S256x64.Idx) (c : dot_S256x128_S128x64_S256x64_1_0_0_1_n_n.contr.Idx) :
    (dot_S256x128_S128x64_S256x64_1_0_0_1_n_n.rhsIdx i c 0).val = (c ⟨0, by decide⟩).val :=
  dot_S256x128_S128x64_S256x64_1_0_0_1_n_n.rhsIdx_val_of_single rfl i c

/-- The right operand's index of the `256x128 · 128x64` product keeps the entry's column. -/
private theorem rhs_rows_W2_1 (i : S256x64.Idx) (c : dot_S256x128_S128x64_S256x64_1_0_0_1_n_n.contr.Idx) :
    (dot_S256x128_S128x64_S256x64_1_0_0_1_n_n.rhsIdx i c 1).val = (i 1).val := by
  unfold DotDims.rhsIdx
  rw [dif_neg (show ¬(1 : Fin S128x64.rank) ∈ dot_S256x128_S128x64_S256x64_1_0_0_1_n_n.rhsBatch by decide), dif_pos (show (1 : Fin S128x64.rank) ∈ dot_S256x128_S128x64_S256x64_1_0_0_1_n_n.rhsNonContracting by decide)]
  rfl

/-- `256x128 · 128x64` into zero, at an entry: the sum over the 128 contracted positions. -/
theorem mm_rows_W2 (l : FVec Ideal S256x128 .f32) (r : FVec Ideal S128x64 .f32) (p : Fin 256) (q : Fin 64) :
    matmul dot_S256x128_S128x64_S256x64_1_0_0_1_n_n none l r (constant S256x64 .f32 0x00000000#32) (ix2 p q) = ∑ k : Fin 128, l (ix2 p k) * r (ix2 k q) := by
  refine (Ideal.matmul_constant_zero_apply dot_S256x128_S128x64_S256x64_1_0_0_1_n_n none l r (ix2 p q)).trans ?_
  rw [← Equiv.sum_comp (ValueIdx.contrEquiv1 dot_S256x128_S128x64_S256x64_1_0_0_1_n_n 128 rfl rfl).symm]
  refine Finset.sum_congr rfl fun k _ => ?_
  have hk := ValueIdx.contrEquiv1_symm_val dot_S256x128_S128x64_S256x64_1_0_0_1_n_n 128 rfl rfl k
  have el : dot_S256x128_S128x64_S256x64_1_0_0_1_n_n.lhsIdx (ix2 p q) ((ValueIdx.contrEquiv1 dot_S256x128_S128x64_S256x64_1_0_0_1_n_n 128 rfl rfl).symm k) = ix2 p k := funext fun a => Fin.ext (by
    match a with
    | ⟨0, _⟩ => exact lhs_rows_W2_0 _ _
    | ⟨1, _⟩ => exact (lhs_rows_W2_1 _ _).trans hk)
  have er : dot_S256x128_S128x64_S256x64_1_0_0_1_n_n.rhsIdx (ix2 p q) ((ValueIdx.contrEquiv1 dot_S256x128_S128x64_S256x64_1_0_0_1_n_n 128 rfl rfl).symm k) = ix2 k q := funext fun a => Fin.ext (by
    match a with
    | ⟨0, _⟩ => exact (rhs_rows_W2_0 _ _).trans hk
    | ⟨1, _⟩ => exact rhs_rows_W2_1 _ _)
  rw [el, er]

/-- The left operand's index of the `256x256 · 256x64` product keeps the entry's row. -/
private theorem lhs_bd_64_0 (i : S256x64.Idx) (c : dot_S256x256_S256x64_S256x64_1_0_0_1_n_n.contr.Idx) :
    (dot_S256x256_S256x64_S256x64_1_0_0_1_n_n.lhsIdx i c 0).val = (i 0).val := by
  unfold DotDims.lhsIdx
  rw [dif_neg (show ¬(0 : Fin S256x256.rank) ∈ dot_S256x256_S256x64_S256x64_1_0_0_1_n_n.lhsBatch by decide), dif_pos (show (0 : Fin S256x256.rank) ∈ dot_S256x256_S256x64_S256x64_1_0_0_1_n_n.lhsNonContracting by decide)]
  rfl

/-- The left operand's index of the `256x256 · 256x64` product has the contracted position as its column. -/
private theorem lhs_bd_64_1 (i : S256x64.Idx) (c : dot_S256x256_S256x64_S256x64_1_0_0_1_n_n.contr.Idx) :
    (dot_S256x256_S256x64_S256x64_1_0_0_1_n_n.lhsIdx i c 1).val = (c ⟨0, by decide⟩).val :=
  dot_S256x256_S256x64_S256x64_1_0_0_1_n_n.lhsIdx_val_of_single rfl i c

/-- The right operand's index of the `256x256 · 256x64` product has the contracted position as its row. -/
private theorem rhs_bd_64_0 (i : S256x64.Idx) (c : dot_S256x256_S256x64_S256x64_1_0_0_1_n_n.contr.Idx) :
    (dot_S256x256_S256x64_S256x64_1_0_0_1_n_n.rhsIdx i c 0).val = (c ⟨0, by decide⟩).val :=
  dot_S256x256_S256x64_S256x64_1_0_0_1_n_n.rhsIdx_val_of_single rfl i c

/-- The right operand's index of the `256x256 · 256x64` product keeps the entry's column. -/
private theorem rhs_bd_64_1 (i : S256x64.Idx) (c : dot_S256x256_S256x64_S256x64_1_0_0_1_n_n.contr.Idx) :
    (dot_S256x256_S256x64_S256x64_1_0_0_1_n_n.rhsIdx i c 1).val = (i 1).val := by
  unfold DotDims.rhsIdx
  rw [dif_neg (show ¬(1 : Fin S256x64.rank) ∈ dot_S256x256_S256x64_S256x64_1_0_0_1_n_n.rhsBatch by decide), dif_pos (show (1 : Fin S256x64.rank) ∈ dot_S256x256_S256x64_S256x64_1_0_0_1_n_n.rhsNonContracting by decide)]
  rfl

/-- `256x256 · 256x64` into zero, at an entry: the sum over the 256 contracted positions. -/
theorem mm_bd_64 (l : FVec Ideal S256x256 .f32) (r : FVec Ideal S256x64 .f32) (p : Fin 256) (q : Fin 64) :
    matmul dot_S256x256_S256x64_S256x64_1_0_0_1_n_n none l r (constant S256x64 .f32 0x00000000#32) (ix2 p q) = ∑ k : Fin 256, l (ix2 p k) * r (ix2 k q) := by
  refine (Ideal.matmul_constant_zero_apply dot_S256x256_S256x64_S256x64_1_0_0_1_n_n none l r (ix2 p q)).trans ?_
  rw [← Equiv.sum_comp (ValueIdx.contrEquiv1 dot_S256x256_S256x64_S256x64_1_0_0_1_n_n 256 rfl rfl).symm]
  refine Finset.sum_congr rfl fun k _ => ?_
  have hk := ValueIdx.contrEquiv1_symm_val dot_S256x256_S256x64_S256x64_1_0_0_1_n_n 256 rfl rfl k
  have el : dot_S256x256_S256x64_S256x64_1_0_0_1_n_n.lhsIdx (ix2 p q) ((ValueIdx.contrEquiv1 dot_S256x256_S256x64_S256x64_1_0_0_1_n_n 256 rfl rfl).symm k) = ix2 p k := funext fun a => Fin.ext (by
    match a with
    | ⟨0, _⟩ => exact lhs_bd_64_0 _ _
    | ⟨1, _⟩ => exact (lhs_bd_64_1 _ _).trans hk)
  have er : dot_S256x256_S256x64_S256x64_1_0_0_1_n_n.rhsIdx (ix2 p q) ((ValueIdx.contrEquiv1 dot_S256x256_S256x64_S256x64_1_0_0_1_n_n 256 rfl rfl).symm k) = ix2 k q := funext fun a => Fin.ext (by
    match a with
    | ⟨0, _⟩ => exact (rhs_bd_64_0 _ _).trans hk
    | ⟨1, _⟩ => exact rhs_bd_64_1 _ _)
  rw [el, er]

/-- The left operand's index of the `256x64 · 64x32` product keeps the entry's row. -/
private theorem lhs_rows_W3_0 (i : S256x32.Idx) (c : dot_S256x64_S64x32_S256x32_1_0_0_1_n_n.contr.Idx) :
    (dot_S256x64_S64x32_S256x32_1_0_0_1_n_n.lhsIdx i c 0).val = (i 0).val := by
  unfold DotDims.lhsIdx
  rw [dif_neg (show ¬(0 : Fin S256x64.rank) ∈ dot_S256x64_S64x32_S256x32_1_0_0_1_n_n.lhsBatch by decide), dif_pos (show (0 : Fin S256x64.rank) ∈ dot_S256x64_S64x32_S256x32_1_0_0_1_n_n.lhsNonContracting by decide)]
  rfl

/-- The left operand's index of the `256x64 · 64x32` product has the contracted position as its column. -/
private theorem lhs_rows_W3_1 (i : S256x32.Idx) (c : dot_S256x64_S64x32_S256x32_1_0_0_1_n_n.contr.Idx) :
    (dot_S256x64_S64x32_S256x32_1_0_0_1_n_n.lhsIdx i c 1).val = (c ⟨0, by decide⟩).val :=
  dot_S256x64_S64x32_S256x32_1_0_0_1_n_n.lhsIdx_val_of_single rfl i c

/-- The right operand's index of the `256x64 · 64x32` product has the contracted position as its row. -/
private theorem rhs_rows_W3_0 (i : S256x32.Idx) (c : dot_S256x64_S64x32_S256x32_1_0_0_1_n_n.contr.Idx) :
    (dot_S256x64_S64x32_S256x32_1_0_0_1_n_n.rhsIdx i c 0).val = (c ⟨0, by decide⟩).val :=
  dot_S256x64_S64x32_S256x32_1_0_0_1_n_n.rhsIdx_val_of_single rfl i c

/-- The right operand's index of the `256x64 · 64x32` product keeps the entry's column. -/
private theorem rhs_rows_W3_1 (i : S256x32.Idx) (c : dot_S256x64_S64x32_S256x32_1_0_0_1_n_n.contr.Idx) :
    (dot_S256x64_S64x32_S256x32_1_0_0_1_n_n.rhsIdx i c 1).val = (i 1).val := by
  unfold DotDims.rhsIdx
  rw [dif_neg (show ¬(1 : Fin S64x32.rank) ∈ dot_S256x64_S64x32_S256x32_1_0_0_1_n_n.rhsBatch by decide), dif_pos (show (1 : Fin S64x32.rank) ∈ dot_S256x64_S64x32_S256x32_1_0_0_1_n_n.rhsNonContracting by decide)]
  rfl

/-- `256x64 · 64x32` into zero, at an entry: the sum over the 64 contracted positions. -/
theorem mm_rows_W3 (l : FVec Ideal S256x64 .f32) (r : FVec Ideal S64x32 .f32) (p : Fin 256) (q : Fin 32) :
    matmul dot_S256x64_S64x32_S256x32_1_0_0_1_n_n none l r (constant S256x32 .f32 0x00000000#32) (ix2 p q) = ∑ k : Fin 64, l (ix2 p k) * r (ix2 k q) := by
  refine (Ideal.matmul_constant_zero_apply dot_S256x64_S64x32_S256x32_1_0_0_1_n_n none l r (ix2 p q)).trans ?_
  rw [← Equiv.sum_comp (ValueIdx.contrEquiv1 dot_S256x64_S64x32_S256x32_1_0_0_1_n_n 64 rfl rfl).symm]
  refine Finset.sum_congr rfl fun k _ => ?_
  have hk := ValueIdx.contrEquiv1_symm_val dot_S256x64_S64x32_S256x32_1_0_0_1_n_n 64 rfl rfl k
  have el : dot_S256x64_S64x32_S256x32_1_0_0_1_n_n.lhsIdx (ix2 p q) ((ValueIdx.contrEquiv1 dot_S256x64_S64x32_S256x32_1_0_0_1_n_n 64 rfl rfl).symm k) = ix2 p k := funext fun a => Fin.ext (by
    match a with
    | ⟨0, _⟩ => exact lhs_rows_W3_0 _ _
    | ⟨1, _⟩ => exact (lhs_rows_W3_1 _ _).trans hk)
  have er : dot_S256x64_S64x32_S256x32_1_0_0_1_n_n.rhsIdx (ix2 p q) ((ValueIdx.contrEquiv1 dot_S256x64_S64x32_S256x32_1_0_0_1_n_n 64 rfl rfl).symm k) = ix2 k q := funext fun a => Fin.ext (by
    match a with
    | ⟨0, _⟩ => exact (rhs_rows_W3_0 _ _).trans hk
    | ⟨1, _⟩ => exact rhs_rows_W3_1 _ _)
  rw [el, er]

/-- The left operand's index of the `256x256 · 256x32` product keeps the entry's row. -/
private theorem lhs_bd_32_0 (i : S256x32.Idx) (c : dot_S256x256_S256x32_S256x32_1_0_0_1_n_n.contr.Idx) :
    (dot_S256x256_S256x32_S256x32_1_0_0_1_n_n.lhsIdx i c 0).val = (i 0).val := by
  unfold DotDims.lhsIdx
  rw [dif_neg (show ¬(0 : Fin S256x256.rank) ∈ dot_S256x256_S256x32_S256x32_1_0_0_1_n_n.lhsBatch by decide), dif_pos (show (0 : Fin S256x256.rank) ∈ dot_S256x256_S256x32_S256x32_1_0_0_1_n_n.lhsNonContracting by decide)]
  rfl

/-- The left operand's index of the `256x256 · 256x32` product has the contracted position as its column. -/
private theorem lhs_bd_32_1 (i : S256x32.Idx) (c : dot_S256x256_S256x32_S256x32_1_0_0_1_n_n.contr.Idx) :
    (dot_S256x256_S256x32_S256x32_1_0_0_1_n_n.lhsIdx i c 1).val = (c ⟨0, by decide⟩).val :=
  dot_S256x256_S256x32_S256x32_1_0_0_1_n_n.lhsIdx_val_of_single rfl i c

/-- The right operand's index of the `256x256 · 256x32` product has the contracted position as its row. -/
private theorem rhs_bd_32_0 (i : S256x32.Idx) (c : dot_S256x256_S256x32_S256x32_1_0_0_1_n_n.contr.Idx) :
    (dot_S256x256_S256x32_S256x32_1_0_0_1_n_n.rhsIdx i c 0).val = (c ⟨0, by decide⟩).val :=
  dot_S256x256_S256x32_S256x32_1_0_0_1_n_n.rhsIdx_val_of_single rfl i c

/-- The right operand's index of the `256x256 · 256x32` product keeps the entry's column. -/
private theorem rhs_bd_32_1 (i : S256x32.Idx) (c : dot_S256x256_S256x32_S256x32_1_0_0_1_n_n.contr.Idx) :
    (dot_S256x256_S256x32_S256x32_1_0_0_1_n_n.rhsIdx i c 1).val = (i 1).val := by
  unfold DotDims.rhsIdx
  rw [dif_neg (show ¬(1 : Fin S256x32.rank) ∈ dot_S256x256_S256x32_S256x32_1_0_0_1_n_n.rhsBatch by decide), dif_pos (show (1 : Fin S256x32.rank) ∈ dot_S256x256_S256x32_S256x32_1_0_0_1_n_n.rhsNonContracting by decide)]
  rfl

/-- `256x256 · 256x32` into zero, at an entry: the sum over the 256 contracted positions. -/
theorem mm_bd_32 (l : FVec Ideal S256x256 .f32) (r : FVec Ideal S256x32 .f32) (p : Fin 256) (q : Fin 32) :
    matmul dot_S256x256_S256x32_S256x32_1_0_0_1_n_n none l r (constant S256x32 .f32 0x00000000#32) (ix2 p q) = ∑ k : Fin 256, l (ix2 p k) * r (ix2 k q) := by
  refine (Ideal.matmul_constant_zero_apply dot_S256x256_S256x32_S256x32_1_0_0_1_n_n none l r (ix2 p q)).trans ?_
  rw [← Equiv.sum_comp (ValueIdx.contrEquiv1 dot_S256x256_S256x32_S256x32_1_0_0_1_n_n 256 rfl rfl).symm]
  refine Finset.sum_congr rfl fun k _ => ?_
  have hk := ValueIdx.contrEquiv1_symm_val dot_S256x256_S256x32_S256x32_1_0_0_1_n_n 256 rfl rfl k
  have el : dot_S256x256_S256x32_S256x32_1_0_0_1_n_n.lhsIdx (ix2 p q) ((ValueIdx.contrEquiv1 dot_S256x256_S256x32_S256x32_1_0_0_1_n_n 256 rfl rfl).symm k) = ix2 p k := funext fun a => Fin.ext (by
    match a with
    | ⟨0, _⟩ => exact lhs_bd_32_0 _ _
    | ⟨1, _⟩ => exact (lhs_bd_32_1 _ _).trans hk)
  have er : dot_S256x256_S256x32_S256x32_1_0_0_1_n_n.rhsIdx (ix2 p q) ((ValueIdx.contrEquiv1 dot_S256x256_S256x32_S256x32_1_0_0_1_n_n 256 rfl rfl).symm k) = ix2 k q := funext fun a => Fin.ext (by
    match a with
    | ⟨0, _⟩ => exact (rhs_bd_32_0 _ _).trans hk
    | ⟨1, _⟩ => exact rhs_bd_32_1 _ _)
  rw [el, er]

/-- The left operand's index of the `16x256 · 256x32` product keeps the entry's row. -/
private theorem lhs_avg_0 (i : S16x32.Idx) (c : dot_S16x256_S256x32_S16x32_1_0_0_1_n_n.contr.Idx) :
    (dot_S16x256_S256x32_S16x32_1_0_0_1_n_n.lhsIdx i c 0).val = (i 0).val := by
  unfold DotDims.lhsIdx
  rw [dif_neg (show ¬(0 : Fin S16x256.rank) ∈ dot_S16x256_S256x32_S16x32_1_0_0_1_n_n.lhsBatch by decide), dif_pos (show (0 : Fin S16x256.rank) ∈ dot_S16x256_S256x32_S16x32_1_0_0_1_n_n.lhsNonContracting by decide)]
  rfl

/-- The left operand's index of the `16x256 · 256x32` product has the contracted position as its column. -/
private theorem lhs_avg_1 (i : S16x32.Idx) (c : dot_S16x256_S256x32_S16x32_1_0_0_1_n_n.contr.Idx) :
    (dot_S16x256_S256x32_S16x32_1_0_0_1_n_n.lhsIdx i c 1).val = (c ⟨0, by decide⟩).val :=
  dot_S16x256_S256x32_S16x32_1_0_0_1_n_n.lhsIdx_val_of_single rfl i c

/-- The right operand's index of the `16x256 · 256x32` product has the contracted position as its row. -/
private theorem rhs_avg_0 (i : S16x32.Idx) (c : dot_S16x256_S256x32_S16x32_1_0_0_1_n_n.contr.Idx) :
    (dot_S16x256_S256x32_S16x32_1_0_0_1_n_n.rhsIdx i c 0).val = (c ⟨0, by decide⟩).val :=
  dot_S16x256_S256x32_S16x32_1_0_0_1_n_n.rhsIdx_val_of_single rfl i c

/-- The right operand's index of the `16x256 · 256x32` product keeps the entry's column. -/
private theorem rhs_avg_1 (i : S16x32.Idx) (c : dot_S16x256_S256x32_S16x32_1_0_0_1_n_n.contr.Idx) :
    (dot_S16x256_S256x32_S16x32_1_0_0_1_n_n.rhsIdx i c 1).val = (i 1).val := by
  unfold DotDims.rhsIdx
  rw [dif_neg (show ¬(1 : Fin S256x32.rank) ∈ dot_S16x256_S256x32_S16x32_1_0_0_1_n_n.rhsBatch by decide), dif_pos (show (1 : Fin S256x32.rank) ∈ dot_S16x256_S256x32_S16x32_1_0_0_1_n_n.rhsNonContracting by decide)]
  rfl

/-- `16x256 · 256x32` into zero, at an entry: the sum over the 256 contracted positions. -/
theorem mm_avg (l : FVec Ideal S16x256 .f32) (r : FVec Ideal S256x32 .f32) (p : Fin 16) (q : Fin 32) :
    matmul dot_S16x256_S256x32_S16x32_1_0_0_1_n_n none l r (constant S16x32 .f32 0x00000000#32) (ix2 p q) = ∑ k : Fin 256, l (ix2 p k) * r (ix2 k q) := by
  refine (Ideal.matmul_constant_zero_apply dot_S16x256_S256x32_S16x32_1_0_0_1_n_n none l r (ix2 p q)).trans ?_
  rw [← Equiv.sum_comp (ValueIdx.contrEquiv1 dot_S16x256_S256x32_S16x32_1_0_0_1_n_n 256 rfl rfl).symm]
  refine Finset.sum_congr rfl fun k _ => ?_
  have hk := ValueIdx.contrEquiv1_symm_val dot_S16x256_S256x32_S16x32_1_0_0_1_n_n 256 rfl rfl k
  have el : dot_S16x256_S256x32_S16x32_1_0_0_1_n_n.lhsIdx (ix2 p q) ((ValueIdx.contrEquiv1 dot_S16x256_S256x32_S16x32_1_0_0_1_n_n 256 rfl rfl).symm k) = ix2 p k := funext fun a => Fin.ext (by
    match a with
    | ⟨0, _⟩ => exact lhs_avg_0 _ _
    | ⟨1, _⟩ => exact (lhs_avg_1 _ _).trans hk)
  have er : dot_S16x256_S256x32_S16x32_1_0_0_1_n_n.rhsIdx (ix2 p q) ((ValueIdx.contrEquiv1 dot_S16x256_S256x32_S16x32_1_0_0_1_n_n 256 rfl rfl).symm k) = ix2 k q := funext fun a => Fin.ext (by
    match a with
    | ⟨0, _⟩ => exact (rhs_avg_0 _ _).trans hk
    | ⟨1, _⟩ => exact rhs_avg_1 _ _)
  rw [el, er]

end Cert.KernelIdeal.Block

end
-- ==== Proof.KernelBlock.lean ====
/-
  What one grid point of the kernel leaves in its 16 × 32 output block, entry by entry.

  The point's input blocks are 16 graphs' features `x0` (16 × 16 × 128) and adjacencies `x1` (16 × 16 × 16), the three
  weight matrices `x2`, `x4`, `x6` and the three biases `x3`, `x5`, `x7` as rows.  The body flattens the 16 graphs into
  256 rows, builds the 256 × 256 block-diagonal matrix of their adjacencies (row `16 g + i`, column `16 g + j` holds
  `x1 g i j`; every entry off the diagonal blocks is zero), runs the three layers as products with it, and averages each
  graph's 16 rows by one more product, with the 16 × 256 matrix that holds `κ` on graph `g`'s columns and zero elsewhere.
  Entry `(g, c)` of the block is therefore graph `g`'s node mean of its own three layers: `out_apply`.
-/
import proofs.«102764_g6493990551891_cont_9to1c4b_81_2_alg».proof.Proof.GcnSpec
import proofs.«102764_g6493990551891_cont_9to1c4b_81_2_alg».proof.Proof.KernelStages
import proofs.«102764_g6493990551891_cont_9to1c4b_81_2_alg».proof.Proof.KernelMask
import proofs.«102764_g6493990551891_cont_9to1c4b_81_2_alg».proof.Proof.KernelLayout
import proofs.«102764_g6493990551891_cont_9to1c4b_81_2_alg».proof.Proof.KernelMatmul

noncomputable section

namespace Cert.KernelIdeal.Block

open Cert.KernelIdeal Cert.KernelIdeal.Gen Idealize.ShloMosaic Idealize.ShloMosaic.ValueIdx

/-- The broadcast zero the rectifier compares with is the extended real zero. -/
private theorem bzero_apply {s : Shape} (i : s.Idx) :
    broadcast s (Scalar.ofBits (F := Ideal) .f32 0x00000000#32) i = (0 : EReal) := by
  rw [broadcast_apply]
  exact Ideal.ofBits_zero_f32

/-- A sum over the 256 rows against the block-diagonal matrix, on a row of graph g, keeps graph g's 16 rows. -/
private theorem bd_sum (v4 : FVec Ideal S256x256 .f32) (g i : Fin 16) (f : Fin 256 → EReal) :
    (∑ k : Fin 256, blockDiag v4 (ix2 (Cert.Gcn.krow g i) k) * f k)
      = ∑ j : Fin 16, v4 (ix2 (Cert.Gcn.krow g i) (Cert.Gcn.krow g j)) * f (Cert.Gcn.krow g j) := by
  refine (Finset.sum_congr rfl fun k _ => ?_).trans
    (Cert.Gcn.sum_blockdiag (n := 16) (R := 256) (by norm_num) g
      (fun k => v4 (ix2 (Cert.Gcn.krow g i) k) * f k))
  rw [blockDiag_apply, ite_mul, zero_mul]

/-- The first layer on row i of graph g. -/
private theorem hidden1_row (v4 : FVec Ideal S256x256 .f32) (v1 : FVec Ideal S256x128 .f32)
    (W : Vec Ideal S128x128 .f32) (b : Vec Ideal S1x128 .f32) (g i : Fin 16) (d : Fin 128) :
    hidden1 (blockDiag v4) v1 W b (ix2 (Cert.Gcn.krow g i) d)
      = max ((∑ j : Fin 16, v4 (ix2 (Cert.Gcn.krow g i) (Cert.Gcn.krow g j))
              * (∑ k : Fin 128, v1 (ix2 (Cert.Gcn.krow g j) k) * W (ix2 k d))) + b (ix2 0 d)) 0 := by
  unfold hidden1
  rw [maximumf_apply, bzero_apply, addf_apply, bias128_apply, mm_bd_128, bd_sum]
  refine congrArg (fun t => max (t + b (ix2 0 d)) 0) (Finset.sum_congr rfl fun j _ => ?_)
  rw [mm_rows_W1]

/-- The second layer on row i of graph g. -/
private theorem hidden2_row (v4 : FVec Ideal S256x256 .f32) (h1 : FVec Ideal S256x128 .f32)
    (W : Vec Ideal S128x64 .f32) (b : Vec Ideal S1x64 .f32) (g i : Fin 16) (d : Fin 64) :
    hidden2 (blockDiag v4) h1 W b (ix2 (Cert.Gcn.krow g i) d)
      = max ((∑ j : Fin 16, v4 (ix2 (Cert.Gcn.krow g i) (Cert.Gcn.krow g j))
              * (∑ k : Fin 128, h1 (ix2 (Cert.Gcn.krow g j) k) * W (ix2 k d))) + b (ix2 0 d)) 0 := by
  unfold hidden2
  rw [maximumf_apply, bzero_apply, addf_apply, bias64_apply, mm_bd_64, bd_sum]
  refine congrArg (fun t => max (t + b (ix2 0 d)) 0) (Finset.sum_congr rfl fun j _ => ?_)
  rw [mm_rows_W2]

/-- The third layer's two products on row i of graph g. -/
private theorem lastMix_row (v4 : FVec Ideal S256x256 .f32) (h2 : FVec Ideal S256x64 .f32)
    (W : Vec Ideal S64x32 .f32) (g i : Fin 16) (d : Fin 32) :
    lastMix (blockDiag v4) h2 W (ix2 (Cert.Gcn.krow g i) d)
      = ∑ j : Fin 16, v4 (ix2 (Cert.Gcn.krow g i) (Cert.Gcn.krow g j))
              * (∑ k : Fin 64, h2 (ix2 (Cert.Gcn.krow g j) k) * W (ix2 k d)) := by
  unfold lastMix
  rw [mm_bd_32, bd_sum]
  refine Finset.sum_congr rfl fun j _ => ?_
  rw [mm_rows_W3]

/-- A sum over the 256 rows against the averaging matrix keeps graph g's 16 rows, each times κ. -/
private theorem avg_sum (g : Fin 16) (f : Fin 256 → EReal) :
    (∑ k : Fin 256, averaging (F := Ideal) (ix2 g k) * f k)
      = ∑ i : Fin 16, Cert.Gcn.κ * f (Cert.Gcn.krow g i) := by
  refine (Finset.sum_congr rfl fun k _ => ?_).trans
    (Cert.Gcn.sum_blockdiag (n := 16) (R := 256) (by norm_num) g (fun k => Cert.Gcn.κ * f k))
  rw [averaging_apply, ite_mul, zero_mul]

/-- Row i of graph g of the tiled adjacency, at a column of graph g's own row j, is entry (i, j) of that graph. -/
private theorem tile_row (x1 : Vec Ideal S16x16x16 .f32) (g i j : Fin 16) :
    k0_pay3 x1 (ix2 (Cert.Gcn.krow g i) (Cert.Gcn.krow g j)) = x1 (ix3 g i j) := by
  rw [tile_apply]
  exact congrArg (fun t => x1 (ix3 g i t)) (Fin.ext (Cert.Gcn.row_mod _ g j))

section Graph

variable (x0 : Vec Ideal S16x16x128 .f32) (x1 : Vec Ideal S16x16x16 .f32) (x2 : Vec Ideal S128x128 .f32)
  (x3 : Vec Ideal S1x128 .f32) (x4 : Vec Ideal S128x64 .f32) (x5 : Vec Ideal S1x64 .f32) (x6 : Vec Ideal S64x32 .f32)
  (x7 : Vec Ideal S1x32 .f32) (g : Fin 16)

/-- On graph g's rows the kernel's first layer is the graph's own rectified first layer. -/
private theorem h1_graph (i : Fin 16) (d : Fin 128) :
    hidden1 (blockDiag (k0_pay3 x1)) (k0_pay2 x0) x2 x3 (ix2 (Cert.Gcn.krow g i) d)
      = Cert.Gcn.relu (Cert.Gcn.mix (fun n j => x1 (ix3 g n j))
          (Cert.Gcn.lin (fun n k => x0 (ix3 g n k)) (fun k d => x2 (ix2 k d))) (fun d => x3 (ix2 0 d))) i d := by
  rw [hidden1_row]
  simp only [tile_row, rows_apply]
  rfl

/-- On graph g's rows the kernel's second layer is the graph's own rectified second layer. -/
private theorem h2_graph (i : Fin 16) (d : Fin 64) :
    hidden2 (blockDiag (k0_pay3 x1)) (hidden1 (blockDiag (k0_pay3 x1)) (k0_pay2 x0) x2 x3) x4 x5
        (ix2 (Cert.Gcn.krow g i) d)
      = Cert.Gcn.relu (Cert.Gcn.mix (fun n j => x1 (ix3 g n j))
          (Cert.Gcn.lin (Cert.Gcn.relu (Cert.Gcn.mix (fun n j => x1 (ix3 g n j))
            (Cert.Gcn.lin (fun n k => x0 (ix3 g n k)) (fun k d => x2 (ix2 k d))) (fun d => x3 (ix2 0 d))))
            (fun k d => x4 (ix2 k d))) (fun d => x5 (ix2 0 d))) i d := by
  rw [hidden2_row]
  simp only [tile_row, h1_graph]
  rfl

/-- On graph g's rows the kernel's third layer with its bias is the graph's own third layer. -/
private theorem h3_graph (i : Fin 16) (c : Fin 32) :
    lastMix (blockDiag (k0_pay3 x1))
        (hidden2 (blockDiag (k0_pay3 x1)) (hidden1 (blockDiag (k0_pay3 x1)) (k0_pay2 x0) x2 x3) x4 x5) x6
        (ix2 (Cert.Gcn.krow g i) c) + x7 (ix2 0 c)
      = Cert.Gcn.layers (fun n k => x0 (ix3 g n k)) (fun n j => x1 (ix3 g n j))
          (fun k d => x2 (ix2 k d)) (fun d => x3 (ix2 0 d)) (fun k d => x4 (ix2 k d)) (fun d => x5 (ix2 0 d))
          (fun k d => x6 (ix2 k d)) (fun d => x7 (ix2 0 d)) i c := by
  rw [lastMix_row]
  simp only [tile_row, h2_graph]
  rfl

end Graph

/-- Entry `(g, c)` of the block a grid point stores is graph `g`'s node mean, in column `c`, of the three layers run on
    that graph's own features and adjacency. -/
theorem out_apply (x0 : Vec Ideal S16x16x128 .f32) (x1 : Vec Ideal S16x16x16 .f32) (x2 : Vec Ideal S128x128 .f32)
    (x3 : Vec Ideal S1x128 .f32) (x4 : Vec Ideal S128x64 .f32) (x5 : Vec Ideal S1x64 .f32) (x6 : Vec Ideal S64x32 .f32)
    (x7 : Vec Ideal S1x32 .f32) (g : Fin 16) (c : Fin 32) :
    out0_8 (F := Ideal) x0 x1 x2 x3 x4 x5 x6 x7 (ix2 g c)
      = Cert.Gcn.nodeMean (Cert.Gcn.layers (fun n k => x0 (ix3 g n k)) (fun n j => x1 (ix3 g n j))
          (fun k d => x2 (ix2 k d)) (fun d => x3 (ix2 0 d)) (fun k d => x4 (ix2 k d)) (fun d => x5 (ix2 0 d))
          (fun k d => x6 (ix2 k d)) (fun d => x7 (ix2 0 d))) c := by
  rw [out_eq, mm_avg, avg_sum]
  unfold Cert.Gcn.nodeMean
  refine Finset.sum_congr rfl fun i _ => ?_
  rw [addf_apply, bias32_apply, h3_graph]

end Cert.KernelIdeal.Block

end
-- ==== Proof.KernelHost.lean ====
/-
  The host lines around the region of the idealized kernel.

  Before the region the host reshapes the three biases into rows: 128 → 1 × 128, 64 → 1 × 64, 32 → 1 × 32.  The region finds
  each row array holding the bias itself: entry `(0, d)` of the row is entry `d` of the bias.  After the region ONE host line
  reshapes the region's 512 × 32 output to 512 × 32 × 1 × 1, moving no entry: entry `(b, c, 0, 0)` of the result is entry
  `(b, c)` of what the region left in its output array.
-/
import proofs.«102764_g6493990551891_cont_9to1c4b_81_2_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.RunValue

open Cert.KernelIdeal Cert.KernelIdeal.Gen Idealize.ShloMosaic Idealize.ShloMosaic.TcCoe Idealize.ShloMosaic.ValueIdx
open Idealize.SL.Sem Idealize.ShloMosaic.StableHlo

variable {F : FTy → Type} [FloatOps F]
variable (m : (ℓ : Loc nD τ sig) → Buf (Elt F) ℓ)

/-- The first bias row, as the region finds it, is the reshaped first bias. -/
theorem bias1_arr (c : Dev nD) :
    (V m c main_v0 : S1x128.Idx → Elt F .f32) = shapeCast S1x128 (m ((c : Thread nD τ).loc main_arg3)) shapeCasts_S128_S1x128 := by
  show StableHlo.after hostOps0 (fun b => m (c, b)) (Proc.devRef .tc main_v0) = _
  after_results
  rfl

/-- The second. -/
theorem bias2_arr (c : Dev nD) :
    (V m c main_v1 : S1x64.Idx → Elt F .f32) = shapeCast S1x64 (m ((c : Thread nD τ).loc main_arg5)) shapeCasts_S64_S1x64 := by
  show StableHlo.after hostOps0 (fun b => m (c, b)) (Proc.devRef .tc main_v1) = _
  after_results
  rfl

/-- The third. -/
theorem bias3_arr (c : Dev nD) :
    (V m c main_v2 : S1x32.Idx → Elt F .f32) = shapeCast S1x32 (m ((c : Thread nD τ).loc main_arg7)) shapeCasts_S32_S1x32 := by
  show StableHlo.after hostOps0 (fun b => m (c, b)) (Proc.devRef .tc main_v2) = _
  after_results
  rfl

/-- Entry `(0, d)` of the first bias row is entry `d` of the first bias. -/
theorem bias1_at (c : Dev nD) (u : Fin 1) (d : Fin 128) :
    (V m c main_v0 : S1x128.Idx → Elt F .f32) (ix2 u d) = (m ((c : Thread nD τ).loc main_arg3) : S128.Idx → Elt F .f32) (ix1 d) := by
  rw [bias1_arr]
  exact shapeCast_a_1a_apply _ _ u d

/-- The same for the second. -/
theorem bias2_at (c : Dev nD) (u : Fin 1) (d : Fin 64) :
    (V m c main_v1 : S1x64.Idx → Elt F .f32) (ix2 u d) = (m ((c : Thread nD τ).loc main_arg5) : S64.Idx → Elt F .f32) (ix1 d) := by
  rw [bias2_arr]
  exact shapeCast_a_1a_apply _ _ u d

/-- And the third. -/
theorem bias3_at (c : Dev nD) (u : Fin 1) (d : Fin 32) :
    (V m c main_v2 : S1x32.Idx → Elt F .f32) (ix2 u d) = (m ((c : Thread nD τ).loc main_arg7) : S32.Idx → Elt F .f32) (ix1 d) := by
  rw [bias3_arr]
  exact shapeCast_a_1a_apply _ _ u d

/-- What the region leaves in its 512 × 32 output array. -/
abbrev outArr (c : Dev nD) : S512x32.Idx → Elt F .f32 := (dats m 0 c).arrAt 8 cfg0.N

/-- The result buffer after the host's last line is the reshape of what the region left in its output array. -/
theorem tail_arr (c : Dev nD) :
    (Pipeline.afterTail₀ cfgs (dats m) 0 (V0 m) [hostOps1] c main_v4 : S512x32x1x1.Idx → Elt F .f32)
      = shapeCast S512x32x1x1 (outArr m c) shapeCasts_S512x32_S512x32x1x1 := by
  unfold Pipeline.afterTail₀
  show StableHlo.after hostOps1 _ (Proc.devRef .tc main_v4) = _
  after_results
  have e : Pipeline.withArrays spec0 c (V0 m c) (fun w => (dats m 0 c).arrAt w cfg0.N)
      (Proc.devRef .tc (Pipeline.arrRef spec0 8)) = (dats m 0 c).arrAt 8 cfg0.N :=
    Pipeline.withArrays_arr spec0 launch0.win.arr_inj c _ _ 8
  exact congrArg (fun y : S512x32.Idx → Elt F .f32 => shapeCast S512x32x1x1 y shapeCasts_S512x32_S512x32x1x1) e

/-- Entry `(b, q, 0, 0)` of the result is entry `(b, q)` of the region's output array. -/
theorem tail_at (c : Dev nD) (b : Fin 512) (q : Fin 32) (d e : Fin 1) :
    (Pipeline.afterTail₀ cfgs (dats m) 0 (V0 m) [hostOps1] c main_v4 : S512x32x1x1.Idx → Elt F .f32) (ix4 b q d e)
      = outArr m c (ix2 b q) := by
  rw [tail_arr]
  refine shapeCast_apply (s := S512x32) (t := S512x32x1x1) (outArr m c) shapeCasts_S512x32_S512x32x1x1 _ _ ?_
  rw [Shape.rowMajor_val_two, Shape.rowMajor_val_four]
  have hd : d.val = 0 := by omega
  have he : e.val = 0 := by omega
  show b.val * 32 + q.val = ((b.val * 32 + q.val) * 1 + d.val) * 1 + e.val
  omega

end Cert.KernelIdeal.RunValue

end
-- ==== Proof.KernelRun.lean ====
/-
  The idealized kernel's run, with its result array named.

  The generated frame run already says that every weakly fair execution terminates with the region's output array at
  what the 32 grid points wrote back, block by block, and every other buffer as the host lines around the region leave it.
  Here that is read as ONE array: point `t` writes rows `16 t … 16 t + 15` of the 512 × 32 output, its block is the
  function `Cert.Gcn.resultAt` of the argument arrays restricted to those rows (graph `16 t + g` of the batch is graph `g`
  of the point's blocks; the biases reach the region as 1 × 128, 1 × 64 and 1 × 32 rows, reshaped by the host before it),
  the 32 blocks cover the array, and the host's last line reshapes 512 × 32 to 512 × 32 × 1 × 1 without moving an entry.
-/
import proofs.«102764_g6493990551891_cont_9to1c4b_81_2_alg».proof.Proof.GcnSpec
import proofs.«102764_g6493990551891_cont_9to1c4b_81_2_alg».proof.Proof.KernelBlock
import proofs.«102764_g6493990551891_cont_9to1c4b_81_2_alg».proof.Proof.KernelHost
import proofs.«102764_g6493990551891_cont_9to1c4b_81_2_alg».proof.Proof.Gen.KernelIdeal.Frame
import Idealize.ShloMosaic.Lib.ValueIdx
import Idealize.ShloMosaic.Lib.Pipeline.Value

noncomputable section

namespace Cert.KernelIdeal.RunValue

open Cert.KernelIdeal Cert.KernelIdeal.Gen Idealize.ShloMosaic Idealize.ShloMosaic.TcCoe Idealize.ShloMosaic.ValueIdx Idealize.SL.Sem

section Blocks

variable (m : (ℓ : Loc nD τ sig) → Buf (Elt Ideal) ℓ)

/-! ## The index maps, and each window's block as entries of the argument arrays -/

/-- The printed index maps over the grid: the feature, adjacency and output windows move with the point on the
    leading axis, every other window is its whole array. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- The feature block of point `t` is graphs `16 t … 16 t + 15` of the feature array. -/
theorem feat_blk (c : Dev nD) (t : Fin cfg0.N) (g n : Fin 16) (k : Fin 128) (b : Fin 512) (hb : b.val = 16 * t.val + g.val) :
    (iblk m c 0 t : Vec Ideal S16x16x128 .f32) (ix3 g n k) = m ((c.tc : Thread nD τ).loc main_arg0) (ix3 b n k) := by
  obtain ⟨e0, e1, e2, -⟩ := idx_facts t
  unfold iblk
  rw [View.read_apply]
  show V m c main_arg0 _ = _
  rw [V_main_arg0]
  congr 1
  funext a
  apply Fin.ext
  match a with
  | ⟨0, _⟩ => show win0_0.index t (0 : Fin 3) * 16 + 1 * g.val = b.val; omega
  | ⟨1, _⟩ => show win0_0.index t (1 : Fin 3) * 16 + 1 * n.val = n.val; omega
  | ⟨2, _⟩ => show win0_0.index t (2 : Fin 3) * 128 + 1 * k.val = k.val; omega

/-- The adjacency block of point `t` is graphs `16 t … 16 t + 15` of the adjacency array. -/
theorem adj_blk (c : Dev nD) (t : Fin cfg0.N) (g n j : Fin 16) (b : Fin 512) (hb : b.val = 16 * t.val + g.val) :
    (iblk m c 1 t : Vec Ideal S16x16x16 .f32) (ix3 g n j) = m ((c.tc : Thread nD τ).loc main_arg1) (ix3 b n j) := by
  obtain ⟨-, -, -, e0, e1, e2, -⟩ := idx_facts t
  unfold iblk
  rw [View.read_apply]
  show V m c main_arg1 _ = _
  rw [V_main_arg1]
  congr 1
  funext a
  apply Fin.ext
  match a with
  | ⟨0, _⟩ => show win0_1.index t (0 : Fin 3) * 16 + 1 * g.val = b.val; omega
  | ⟨1, _⟩ => show win0_1.index t (1 : Fin 3) * 16 + 1 * n.val = n.val; omega
  | ⟨2, _⟩ => show win0_1.index t (2 : Fin 3) * 16 + 1 * j.val = j.val; omega

/-- The first layer's weight block at every point is the whole weight array. -/
theorem w1_blk (c : Dev nD) (t : Fin cfg0.N) (k : Fin 128) (d : Fin 128) :
    (iblk m c 2 t : Vec Ideal S128x128 .f32) (ix2 k d) = m ((c.tc : Thread nD τ).loc main_arg2) (ix2 k d) := by
  obtain ⟨-, -, -, -, -, -, e0, e1, -⟩ := idx_facts t
  unfold iblk
  rw [View.read_apply]
  show V m c main_arg2 _ = _
  rw [V_main_arg2]
  congr 1
  funext a
  apply Fin.ext
  match a with
  | ⟨0, _⟩ => show win0_2.index t (0 : Fin 2) * 128 + 1 * k.val = k.val; omega
  | ⟨1, _⟩ => show win0_2.index t (1 : Fin 2) * 128 + 1 * d.val = d.val; omega

/-- The first bias block at every point is the bias vector, as the one row the host reshaped it to. -/
theorem b1_blk (c : Dev nD) (t : Fin cfg0.N) (d : Fin 128) :
    (iblk m c 3 t : Vec Ideal S1x128 .f32) (ix2 (0 : Fin 1) d) = m ((c.tc : Thread nD τ).loc main_arg3) (ix1 d) := by
  obtain ⟨-, -, -, -, -, -, -, -, e0, e1, -⟩ := idx_facts t
  unfold iblk
  rw [View.read_apply]
  have he : ((cfg0.win 3).blk t).view.emb (ix2 (0 : Fin 1) d) = (ix2 (0 : Fin 1) d : S1x128.Idx) := by
    funext a; apply Fin.ext
    match a with
    | ⟨0, _⟩ => show win0_3.index t (0 : Fin 2) * 1 + 1 * 0 = 0; omega
    | ⟨1, _⟩ => show win0_3.index t (1 : Fin 2) * 128 + 1 * d.val = d.val; omega
  show V m c main_v0 (((cfg0.win 3).blk t).view.emb (ix2 (0 : Fin 1) d)) = _
  rw [he]
  exact bias1_at m c 0 d

/-- The second layer's weight block at every point is the whole weight array. -/
theorem w2_blk (c : Dev nD) (t : Fin cfg0.N) (k : Fin 128) (d : Fin 64) :
    (iblk m c 4 t : Vec Ideal S128x64 .f32) (ix2 k d) = m ((c.tc : Thread nD τ).loc main_arg4) (ix2 k d) := by
  obtain ⟨-, -, -, -, -, -, -, -, -, -, e0, e1, -⟩ := idx_facts t
  unfold iblk
  rw [View.read_apply]
  show V m c main_arg4 _ = _
  rw [V_main_arg4]
  congr 1
  funext a
  apply Fin.ext
  match a with
  | ⟨0, _⟩ => show win0_4.index t (0 : Fin 2) * 128 + 1 * k.val = k.val; omega
  | ⟨1, _⟩ => show win0_4.index t (1 : Fin 2) * 64 + 1 * d.val = d.val; omega

/-- The second bias block at every point is the bias vector, as a row. -/
theorem b2_blk (c : Dev nD) (t : Fin cfg0.N) (d : Fin 64) :
    (iblk m c 5 t : Vec Ideal S1x64 .f32) (ix2 (0 : Fin 1) d) = m ((c.tc : Thread nD τ).loc main_arg5) (ix1 d) := by
  obtain ⟨-, -, -, -, -, -, -, -, -, -, -, -, e0, e1, -⟩ := idx_facts t
  unfold iblk
  rw [View.read_apply]
  have he : ((cfg0.win 5).blk t).view.emb (ix2 (0 : Fin 1) d) = (ix2 (0 : Fin 1) d : S1x64.Idx) := by
    funext a; apply Fin.ext
    match a with
    | ⟨0, _⟩ => show win0_5.index t (0 : Fin 2) * 1 + 1 * 0 = 0; omega
    | ⟨1, _⟩ => show win0_5.index t (1 : Fin 2) * 64 + 1 * d.val = d.val; omega
  show V m c main_v1 (((cfg0.win 5).blk t).view.emb (ix2 (0 : Fin 1) d)) = _
  rw [he]
  exact bias2_at m c 0 d

/-- The third layer's weight block at every point is the whole weight array. -/
theorem w3_blk (c : Dev nD) (t : Fin cfg0.N) (k : Fin 64) (d : Fin 32) :
    (iblk m c 6 t : Vec Ideal S64x32 .f32) (ix2 k d) = m ((c.tc : Thread nD τ).loc main_arg6) (ix2 k d) := by
  obtain ⟨-, -, -, -, -, -, -, -, -, -, -, -, -, -, e0, e1, -⟩ := idx_facts t
  unfold iblk
  rw [View.read_apply]
  show V m c main_arg6 _ = _
  rw [V_main_arg6]
  congr 1
  funext a
  apply Fin.ext
  match a with
  | ⟨0, _⟩ => show win0_6.index t (0 : Fin 2) * 64 + 1 * k.val = k.val; omega
  | ⟨1, _⟩ => show win0_6.index t (1 : Fin 2) * 32 + 1 * d.val = d.val; omega

/-- The third bias block at every point is the bias vector, as a row. -/
theorem b3_blk (c : Dev nD) (t : Fin cfg0.N) (d : Fin 32) :
    (iblk m c 7 t : Vec Ideal S1x32 .f32) (ix2 (0 : Fin 1) d) = m ((c.tc : Thread nD τ).loc main_arg7) (ix1 d) := by
  obtain ⟨-, -, -, -, -, -, -, -, -, -, -, -, -, -, -, -, e0, e1, -⟩ := idx_facts t
  unfold iblk
  rw [View.read_apply]
  have he : ((cfg0.win 7).blk t).view.emb (ix2 (0 : Fin 1) d) = (ix2 (0 : Fin 1) d : S1x32.Idx) := by
    funext a; apply Fin.ext
    match a with
    | ⟨0, _⟩ => show win0_7.index t (0 : Fin 2) * 1 + 1 * 0 = 0; omega
    | ⟨1, _⟩ => show win0_7.index t (1 : Fin 2) * 32 + 1 * d.val = d.val; omega
  show V m c main_v2 (((cfg0.win 7).blk t).view.emb (ix2 (0 : Fin 1) d)) = _
  rw [he]
  exact bias3_at m c 0 d

/-! ## What a point writes back, as a block of one array -/

/-- The node mean of the three layers depends only on the eight operands. -/
theorem nodeMean_layers_congr {x x' : Fin 16 → Fin 128 → EReal} {a a' : Fin 16 → Fin 16 → EReal}
    {W1 W1' : Fin 128 → Fin 128 → EReal} {β1 β1' : Fin 128 → EReal} {W2 W2' : Fin 128 → Fin 64 → EReal}
    {β2 β2' : Fin 64 → EReal} {W3 W3' : Fin 64 → Fin 32 → EReal} {β3 β3' : Fin 32 → EReal}
    (h0 : x = x') (h1 : a = a') (h2 : W1 = W1') (h3 : β1 = β1') (h4 : W2 = W2') (h5 : β2 = β2') (h6 : W3 = W3')
    (h7 : β3 = β3') (cc : Fin 32) :
    Cert.Gcn.nodeMean (Cert.Gcn.layers x a W1 β1 W2 β2 W3 β3) cc
      = Cert.Gcn.nodeMean (Cert.Gcn.layers x' a' W1' β1' W2' β2' W3' β3') cc := by
  subst h0 h1 h2 h3 h4 h5 h6 h7; rfl

/-- The region's output array as one function of the argument arrays: row `b`, column `cc` is graph `b`'s node
    mean of the three layers in column `cc`. -/
abbrev meanArr (c : Dev nD) : S512x32.Idx → EReal := fun i =>
  Cert.Gcn.resultAt (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    ⟨(i 0).val, (i 0).isLt⟩ ⟨(i 1).val, (i 1).isLt⟩

/-- Entry `(g, cc)` of what point `t` stores is entry `(16 t + g, cc)` of the output array: graph `16 t + g` of the
    batch is graph `g` of the point's blocks. -/
theorem point_entry (c : Dev nD) (t : Fin cfg0.N) (g : Fin 16) (cc : Fin 32) :
    out0_8 (F := Ideal) (iblk m c 0 t) (iblk m c 1 t) (iblk m c 2 t) (iblk m c 3 t) (iblk m c 4 t) (iblk m c 5 t)
        (iblk m c 6 t) (iblk m c 7 t) (ix2 g cc)
      = meanArr m c (((cfg0.win 8).blk t).view.emb (ix2 g cc)) := by
  have ht : t.val < 32 := lt_of_lt_of_eq t.isLt N_0
  obtain ⟨-, -, -, -, -, -, -, -, -, -, -, -, -, -, -, -, -, -, e0, e1⟩ := idx_facts t
  have hb : (⟨16 * t.val + g.val, by have := g.isLt; omega⟩ : Fin 512).val = 16 * t.val + g.val := rfl
  refine (Cert.KernelIdeal.Block.out_apply (iblk m c 0 t) (iblk m c 1 t) (iblk m c 2 t) (iblk m c 3 t) (iblk m c 4 t)
    (iblk m c 5 t) (iblk m c 6 t) (iblk m c 7 t) g cc).trans ?_
  refine (nodeMean_layers_congr
    (funext fun n => funext fun k => feat_blk m c t g n k _ hb)
    (funext fun n => funext fun j => adj_blk m c t g n j _ hb)
    (funext fun k => funext fun d => w1_blk m c t k d)
    (funext fun d => b1_blk m c t d)
    (funext fun k => funext fun d => w2_blk m c t k d)
    (funext fun d => b2_blk m c t d)
    (funext fun k => funext fun d => w3_blk m c t k d)
    (funext fun d => b3_blk m c t d) cc).trans ?_
  have h0 : ((((cfg0.win 8).blk t).view.emb (ix2 g cc)) 0).val = 16 * t.val + g.val := by
    show win0_8.index t (0 : Fin 2) * 16 + 1 * g.val = _; omega
  have h1 : ((((cfg0.win 8).blk t).view.emb (ix2 g cc)) 1).val = cc.val := by
    show win0_8.index t (1 : Fin 2) * 32 + 1 * cc.val = _; omega
  exact congrArg₂ (Cert.Gcn.resultAt _ _ _ _ _ _ _ _) (Fin.ext h0.symm) (Fin.ext h1.symm)

/-- What point `t` writes back is its block of the output array. -/
theorem flushed_eq (c : Dev nD) (t : Fin cfg0.N) :
    (dats m 0 c).flushed 8 t = ((cfg0.win 8).blk t).view.read (Elt Ideal) (meanArr m c) := by
  show (cfg0.win 8).cut (grid0.coords t) ((dats m 0 c).after 8 t) = _
  rw [after0_8]
  funext j
  obtain ⟨g, cc, rfl⟩ : ∃ (g : Fin 16) (cc : Fin 32), j = ix2 g cc := ⟨j 0, j 1, eq_ix2 j⟩
  exact point_entry m c t g cc

/-! ## The 32 blocks cover the array -/

/-- An index of the output array is in point `t`'s block iff each coordinate is in the block's range on its axis. -/
theorem mem_blk (t : Fin cfg0.N) (i : S512x32.Idx) :
    i ∈ ((cfg0.win 8).blk t).view.set ↔ ∀ a : Fin 2, win0_8.index t a * S16x32.size a ≤ (i a).val ∧ (i a).val < win0_8.index t a * S16x32.size a + S16x32.size a := by
  show i ∈ ((View.whole main_v3).slice (win0_8.rect t)).set ↔ _
  rw [View.set_slice_whole, Rect.mem_set_unit]
  exact Iff.rfl

/-- Row `r` of the output array is written by point `r / 16`. -/
theorem cover (i : S512x32.Idx) :
    ∃ t : Fin cfg0.N, (cfg0.win 8).flush t = true ∧ i ∈ ((cfg0.win 8).blk t).view.set := by
  have hi0 : (i 0).val < 512 := (i 0).isLt
  have hi1 : (i 1).val < 32 := (i 1).isLt
  have hq : (i 0).val / 16 < 32 := by omega
  obtain ⟨t, ht⟩ : ∃ t : Fin cfg0.N, t.val = (i 0).val / 16 := ⟨⟨(i 0).val / 16, lt_of_lt_of_eq hq N_0.symm⟩, rfl⟩
  obtain ⟨-, -, -, -, -, -, -, -, -, -, -, -, -, -, -, -, -, -, e0, e1⟩ := idx_facts t
  refine ⟨t, flush0_8 t, ?_⟩
  rw [mem_blk]
  intro a
  match a with
  | ⟨0, _⟩ => show win0_8.index t (0 : Fin 2) * 16 ≤ (i 0).val ∧ (i 0).val < win0_8.index t (0 : Fin 2) * 16 + 16; omega
  | ⟨1, _⟩ => show win0_8.index t (1 : Fin 2) * 32 ≤ (i 1).val ∧ (i 1).val < win0_8.index t (1 : Fin 2) * 32 + 32; omega

/-- The region leaves the output array at the node means of the three layers, graph by graph. -/
theorem final (c : Dev nD) : outArr m c = meanArr m c :=
  (dats m 0 c).arrAt_eq_of_cover 8 (meanArr m c) (fun t _ => flushed_eq m c t) cover

/-! ## The result after the host's last line -/

/-- The result buffer after the host's last line is `Cert.Gcn.result` of the argument arrays: the reshape moves no entry. -/
theorem result_eq (c : Dev nD) :
    (Pipeline.afterTail₀ cfgs (dats m) 0 (V0 m) [hostOps1] c main_v4 : S512x32x1x1.Idx → EReal)
      = Cert.Gcn.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  funext i
  obtain ⟨b, q, d, e, rfl⟩ : ∃ (b : Fin 512) (q : Fin 32) (d e : Fin 1), i = ix4 b q d e :=
    ⟨i 0, i 1, i 2, i 3, eq_ix4 i⟩
  refine (tail_at m c b q d e).trans ?_
  exact congrFun (final m c) (ix2 b q)

end Blocks

/-! ## The run -/

/-- Every weakly fair execution of the idealized kernel terminates with its result at `Cert.Gcn.result` of the argument
    arrays, and the argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v4) = Cert.Gcn.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v4 (Pipeline.mem_restRefs_of main_v4 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c))),
      ((h c).2 main_arg7 (Pipeline.mem_restRefs_of main_arg7 (by decide) (by decide))).trans (W_main_arg7 m (dats m) c)⟩)
    (run_main m ρ)

end Cert.KernelIdeal.RunValue

end
-- ==== Proof.LibScatterSet.lean ====
/-
  An overwriting scatter whose updates land on pairwise distinct places, read at an index.

  `Host.scatter d (fun _ b => b) x idx upd` walks the update indices in row-major order and, for each one whose landing index
  `d.resultIdx? j idx` is inside the operand, replaces the operand's entry there by the update's entry.  If exactly one update
  index `j` lands on `k`, the result at `k` is `upd j` — whatever was written before it is overwritten, and nothing after it
  writes there; if none lands on `k`, the result at `k` is still `x k`.  (`x.at[rows, cols].set(v)` with index pairs that do not
  repeat.)  General in the shapes, the dimension numbers, the index width and the element type.
-/
import Idealize.ShloMosaic.PureOps.ShapeOps
import Idealize.ShloMosaic.PureOps.Dims

namespace Idealize.ShloMosaic

section ScatterSet

variable {α : Type} {w : Nat} {s si u : Shape} (d : ScatterDims s si u) (idx : IVec si w) (upd : u.Idx → α)

/-- One step of the overwriting scatter: the update with row-major number `n` replaces the entry at its landing index, when
    that index is inside the operand. -/
private def setStep (r : s.Idx → α) (n : Fin u.numel) : s.Idx → α :=
  match d.resultIdx? (u.rowMajor.symm n) idx with
  | some i => fun i' => if i' = i then (fun _ b => b) (r i) (upd (u.rowMajor.symm n)) else r i'
  | none => r

/-- The overwriting scatter is the left fold of its step over the row-major numbers of the update indices. -/
private theorem scatter_set_eq_foldl (x : s.Idx → α) :
    Host.scatter d (fun _ b => b) x idx upd = (List.finRange u.numel).foldl (setStep d idx upd) x := rfl

/-- One step read at an index `k`: the update's entry when the update lands on `k`, the previous entry otherwise. -/
private theorem setStep_apply (r : s.Idx → α) (n : Fin u.numel) (k : s.Idx) :
    setStep d idx upd r n k
      = if d.resultIdx? (u.rowMajor.symm n) idx = some k then upd (u.rowMajor.symm n) else r k := by
  unfold setStep
  cases h : d.resultIdx? (u.rowMajor.symm n) idx with
  | none => simp
  | some i =>
    by_cases hk : k = i
    · subst hk; simp
    · have hne : ¬ (some i = some k) := fun h' => hk (Option.some.inj h').symm
      simp only [if_neg hk, if_neg hne]

/-- A fold of steps none of which lands on `k` leaves the entry at `k` as it was. -/
private theorem foldl_setStep_of_none (l : List (Fin u.numel)) (r : s.Idx → α) (k : s.Idx)
    (h : ∀ n ∈ l, d.resultIdx? (u.rowMajor.symm n) idx ≠ some k) :
    l.foldl (setStep d idx upd) r k = r k := by
  induction l generalizing r with
  | nil => rfl
  | cons n l ih =>
    rw [List.foldl_cons, ih _ (fun m hm => h m (List.mem_cons_of_mem _ hm)), setStep_apply,
      if_neg (h n List.mem_cons_self)]

/-- A fold of steps of which exactly one, `n`, lands on `k` leaves that update's entry at `k`. -/
private theorem foldl_setStep_of_unique (l : List (Fin u.numel)) (r : s.Idx → α) (k : s.Idx) (n : Fin u.numel)
    (hn : n ∈ l) (hland : d.resultIdx? (u.rowMajor.symm n) idx = some k)
    (huniq : ∀ m, d.resultIdx? (u.rowMajor.symm m) idx = some k → m = n) :
    l.foldl (setStep d idx upd) r k = upd (u.rowMajor.symm n) := by
  induction l generalizing r with
  | nil => exact absurd hn List.not_mem_nil
  | cons m l ih =>
    rw [List.foldl_cons]
    by_cases hnl : n ∈ l
    · exact ih _ hnl
    · have hm : n = m := by
        rcases List.mem_cons.1 hn with h | h
        · exact h
        · exact absurd h hnl
      subst hm
      rw [foldl_setStep_of_none d idx upd l _ k (fun m' hm' h' => hnl (huniq m' h' ▸ hm')), setStep_apply,
        if_pos hland]

end ScatterSet

/-- The entry of an overwriting scatter at an index `k` on which exactly one update index `j` lands is that update's entry. -/
theorem Host.scatter_set_apply_of_unique {α : Type} {w : Nat} {s si u : Shape} (d : ScatterDims s si u) (x : s.Idx → α)
    (idx : IVec si w) (upd : u.Idx → α) (k : s.Idx) (j : u.Idx) (hj : d.resultIdx? j idx = some k)
    (huniq : ∀ j', d.resultIdx? j' idx = some k → j' = j) :
    Host.scatter d (fun _ b => b) x idx upd k = upd j := by
  have h := foldl_setStep_of_unique d idx upd (List.finRange u.numel) x k (u.rowMajor j) (List.mem_finRange _)
    (by rw [Equiv.symm_apply_apply]; exact hj)
    (fun m hm => by rw [← huniq _ hm, Equiv.apply_symm_apply])
  rw [Equiv.symm_apply_apply] at h
  rw [scatter_set_eq_foldl]
  exact h

/-- The entry of an overwriting scatter at an index on which no update lands is the operand's. -/
theorem Host.scatter_set_apply_of_none {α : Type} {w : Nat} {s si u : Shape} (d : ScatterDims s si u) (x : s.Idx → α)
    (idx : IVec si w) (upd : u.Idx → α) (k : s.Idx) (hnone : ∀ j, d.resultIdx? j idx ≠ some k) :
    Host.scatter d (fun _ b => b) x idx upd k = x k := by
  rw [scatter_set_eq_foldl]
  exact foldl_setStep_of_none d idx upd (List.finRange u.numel) x k (fun n _ => hnone _)

end Idealize.ShloMosaic
-- ==== Proof.RefAdj.lean ====
/-
  The reference's 8192 × 8192 adjacency matrix, read at an entry.

  The reference writes, for every graph `b` and nodes `i`, `j`, the entry `adj b i j` at row `16 b + i`, column `16 b + j` of a
  matrix of zeros.  The index pairs are built on the host as 32-bit words — `16 · b` from an iota times 16, plus an iota
  over 16, each then passed through "add 8192 if negative", which never fires on these nonnegative values — and joined
  into one index vector per update; they are inside the matrix and pairwise distinct, so the scatter is the overwriting one
  of `Host.scatter_set_apply_of_unique`: row `16 b + i` holds graph `b`'s adjacency row `i` on that graph's sixteen columns, and the
  zero it started from everywhere else (at the ideal values the word `0x00000000` is the extended real zero).
-/
import proofs.«102764_g6493990551891_cont_9to1c4b_81_2_alg».proof.Proof.GcnSpec
import proofs.«102764_g6493990551891_cont_9to1c4b_81_2_alg».proof.Proof.LibScatterSet
import proofs.«102764_g6493990551891_cont_9to1c4b_81_2_alg».proof.Proof.Gen.ReferenceIdeal.Read
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-! ## The index words -/

/-- The word of a graph number times sixteen, plus the word of a node number, is the word of the row number. -/
private theorem word_row (b i : Nat) :
    BitVec.ofNat 32 b * 16#32 + BitVec.ofNat 32 i = BitVec.ofNat 32 (16 * b + i) := by
  rw [BitVec.ofNat_add, Nat.mul_comm, BitVec.ofNat_mul]

/-- A row number below 8192, as a 32-bit word read signed, is itself. -/
private theorem toInt_word (n : Nat) (h : n < 8192) : (BitVec.ofNat 32 n).toInt = (n : Int) := by
  have h1 : (BitVec.ofNat 32 n).toNat = n := by rw [BitVec.toNat_ofNat]; exact Nat.mod_eq_of_lt (by omega)
  rw [BitVec.toInt_eq_toNat_of_lt (by rw [h1]; omega), h1]

/-- "Add 8192 if negative" leaves the word of a row number below 8192 as it is. -/
private theorem wrap_word (n : Nat) (h : n < 8192) :
    Scalar.select (IntOp.cmpi .slt (BitVec.ofNat 32 n) 0#32) (IntOp.addi (BitVec.ofNat 32 n) 8192#32) (BitVec.ofNat 32 n)
      = BitVec.ofNat 32 n := by
  have hs : (BitVec.ofNat 32 n).slt 0#32 = false := by
    rw [BitVec.slt, toInt_word n h]; simp
  show Scalar.select (BitVec.ofBool ((BitVec.ofNat 32 n).slt 0#32)) _ _ = _
  rw [hs]
  exact select_zero _ _

/-- The row words before the wrap: sixteen times the graph number plus the row's node number. -/
private theorem v9_val (i : S512x16x1.Idx) :
    val_main_v9 (F := Ideal) i = BitVec.ofNat 32 (16 * (i 0).val + (i 1).val) := by
  rw [val_main_v9_apply, val_main_v7_apply, val_main_v4_apply, val_main_v3_apply, val_main_v1_apply, val_main_v2_apply,
    val_main_c_apply, val_main_v8_apply, val_main_v6_apply, val_main_v5_apply]
  exact word_row _ _

/-- The column words before the wrap: sixteen times the graph number plus the column's node number. -/
private theorem v15_val (i : S512x1x16.Idx) :
    val_main_v15 (F := Ideal) i = BitVec.ofNat 32 (16 * (i 0).val + (i 2).val) := by
  rw [val_main_v15_apply, val_main_v13_apply, val_main_v10_apply, val_main_v3_apply, val_main_v1_apply, val_main_v2_apply,
    val_main_c_apply, val_main_v14_apply, val_main_v12_apply, val_main_v11_apply]
  exact word_row _ _

/-- The row words after the wrap, which does not fire. -/
private theorem v21_val (i : S512x16x1.Idx) :
    val_main_v21 (F := Ideal) i = BitVec.ofNat 32 (16 * (i 0).val + (i 1).val) := by
  have h0 : (i 0).val < 512 := (i 0).isLt
  have h1 : (i 1).val < 16 := (i 1).isLt
  rw [val_main_v21_apply, val_main_v18_apply, val_main_v20_apply, val_main_v17_apply, val_main_c_0_apply,
    val_main_v19_apply, val_main_c_1_apply, v9_val]
  exact wrap_word _ (by omega)

/-- The column words after the wrap, which does not fire. -/
private theorem v26_val (i : S512x1x16.Idx) :
    val_main_v26 (F := Ideal) i = BitVec.ofNat 32 (16 * (i 0).val + (i 2).val) := by
  have h0 : (i 0).val < 512 := (i 0).isLt
  have h2 : (i 2).val < 16 := (i 2).isLt
  rw [val_main_v26_apply, val_main_v23_apply, val_main_v25_apply, val_main_v22_apply, val_main_c_2_apply,
    val_main_v24_apply, val_main_c_3_apply, v15_val]
  exact wrap_word _ (by omega)

/-- Component 0 of the index vector of update `(b, i, j)` is the word of row `16 b + i`. -/
private theorem v31_row (b : Fin 512) (i j : Fin 16) :
    val_main_v31 (F := Ideal) (ix4 b i j (0 : Fin 2)) = BitVec.ofNat 32 (16 * b.val + i.val) := by
  unfold val_main_v31
  refine (concatenate_pair_apply_left (t := S512x16x16x2) (s₁ := S512x16x16x1) (s₂ := S512x16x16x1) 3 _ _ _
    (ix4 b i j (0 : Fin 2)) rfl (ix4 b i j (0 : Fin 1)) ?_).trans ?_
  · intro a; match a with | ⟨0, _⟩ => rfl | ⟨1, _⟩ => rfl | ⟨2, _⟩ => rfl | ⟨3, _⟩ => rfl
  · rw [val_main_v29_apply, val_main_v27_apply, v21_val]

/-- Component 1 of the index vector of update `(b, i, j)` is the word of column `16 b + j`. -/
private theorem v31_col (b : Fin 512) (i j : Fin 16) :
    val_main_v31 (F := Ideal) (ix4 b i j (1 : Fin 2)) = BitVec.ofNat 32 (16 * b.val + j.val) := by
  unfold val_main_v31
  refine (concatenate_pair_apply_right (t := S512x16x16x2) (s₁ := S512x16x16x1) (s₂ := S512x16x16x1) 3 _ _ _
    (ix4 b i j (1 : Fin 2)) rfl rfl (ix4 b i j (0 : Fin 1)) ?_ ?_).trans ?_
  · intro a ha; match a with | ⟨0, _⟩ => rfl | ⟨1, _⟩ => rfl | ⟨2, _⟩ => rfl | ⟨3, _⟩ => exact absurd rfl ha
  · rfl
  · rw [val_main_v30_apply, val_main_v28_apply, v26_val]

/-! ## Where an update lands -/

/-- The scatter's dimension numbers: no window axes, both operand axes read off the index vector on axis 3. -/
private abbrev scat := scatter_S8192x8192_S512x16x16x2_S512x16x16_n_01_01_3

/-- There are no window axes: the window coordinate is zero on both operand axes. -/
private theorem window_zero (j : S512x16x16.Idx) (a : Fin 2) : scat.window j a = 0 := by
  unfold ScatterDims.window
  rw [dif_neg]
  exact (by decide : ∀ a : Fin 2, a ∉ scat.sKept) a

/-- Update `(b, i, j)` reads its row start at component 0 of its own index vector. -/
private theorem siIdx_row (b : Fin 512) (i j : Fin 16) :
    scat.siIdx (ix3 b i j) ⟨scat.scatterDimsToOperandDims.idxOf (⟨0, by decide⟩ : Fin 2), by decide⟩
      = ix4 b i j (0 : Fin 2) := by
  funext a
  match a with
  | ⟨0, _⟩ => rfl
  | ⟨1, _⟩ => rfl
  | ⟨2, _⟩ => rfl
  | ⟨3, _⟩ => rfl

/-- Update `(b, i, j)` reads its column start at component 1 of its own index vector. -/
private theorem siIdx_col (b : Fin 512) (i j : Fin 16) :
    scat.siIdx (ix3 b i j) ⟨scat.scatterDimsToOperandDims.idxOf (⟨1, by decide⟩ : Fin 2), by decide⟩
      = ix4 b i j (1 : Fin 2) := by
  funext a
  match a with
  | ⟨0, _⟩ => rfl
  | ⟨1, _⟩ => rfl
  | ⟨2, _⟩ => rfl
  | ⟨3, _⟩ => rfl

/-- The row start of update `(b, i, j)`: component 0 of its index vector, read signed. -/
private theorem start_row (b : Fin 512) (i j : Fin 16) (idx : IVec S512x16x16x2 32) :
    scat.start (ix3 b i j) idx (⟨0, by decide⟩ : Fin 2) = (idx (ix4 b i j (0 : Fin 2))).toInt := by
  unfold ScatterDims.start
  rw [dif_pos (by decide)]
  exact congrArg (fun q => (idx q).toInt) (siIdx_row b i j)

/-- The column start of update `(b, i, j)`: component 1 of its index vector, read signed. -/
private theorem start_col (b : Fin 512) (i j : Fin 16) (idx : IVec S512x16x16x2 32) :
    scat.start (ix3 b i j) idx (⟨1, by decide⟩ : Fin 2) = (idx (ix4 b i j (1 : Fin 2))).toInt := by
  unfold ScatterDims.start
  rw [dif_pos (by decide)]
  exact congrArg (fun q => (idx q).toInt) (siIdx_col b i j)

/-- Update `(b, i, j)` lands on row `16 b + i`, column `16 b + j`, inside the matrix. -/
private theorem resultIdx_eq (b : Fin 512) (i j : Fin 16) :
    scat.resultIdx? (ix3 b i j) (val_main_v31 (F := Ideal)) = some (ix2 (Cert.Gcn.rrow b i) (Cert.Gcn.rrow b j)) := by
  have hb := b.isLt
  have hi := i.isLt
  have hj := j.isLt
  have hs0 : scat.start (ix3 b i j) (val_main_v31 (F := Ideal)) (⟨0, by decide⟩ : Fin 2)
      + ((scat.window (ix3 b i j) (⟨0, by decide⟩ : Fin 2) : Nat) : Int) = ((16 * b.val + i.val : Nat) : Int) := by
    rw [window_zero, start_row, v31_row, toInt_word _ (by omega)]; simp
  have hs1 : scat.start (ix3 b i j) (val_main_v31 (F := Ideal)) (⟨1, by decide⟩ : Fin 2)
      + ((scat.window (ix3 b i j) (⟨1, by decide⟩ : Fin 2) : Nat) : Int) = ((16 * b.val + j.val : Nat) : Int) := by
    rw [window_zero, start_col, v31_col, toInt_word _ (by omega)]; simp
  have h : ∀ a, 0 ≤ scat.start (ix3 b i j) (val_main_v31 (F := Ideal)) a + scat.window (ix3 b i j) a
      ∧ scat.start (ix3 b i j) (val_main_v31 (F := Ideal)) a + scat.window (ix3 b i j) a < S8192x8192.size a := by
    intro a
    match a with
    | ⟨0, _⟩ => rw [hs0]; show (0 : Int) ≤ _ ∧ _ < ((8192 : Nat) : Int); omega
    | ⟨1, _⟩ => rw [hs1]; show (0 : Int) ≤ _ ∧ _ < ((8192 : Nat) : Int); omega
  unfold ScatterDims.resultIdx?
  rw [dif_pos h]
  refine congrArg some (funext fun a => ?_)
  match a with
  | ⟨0, _⟩ => exact Fin.ext (by show (_ : Int).toNat = 16 * b.val + i.val; rw [hs0]; exact Int.toNat_natCast _)
  | ⟨1, _⟩ => exact Fin.ext (by show (_ : Int).toNat = 16 * b.val + j.val; rw [hs1]; exact Int.toNat_natCast _)

/-! ## The matrix at an entry -/

/-- Row `16 b + i` of the scattered matrix: graph `b`'s adjacency row `i` on that graph's columns, zero elsewhere. -/
theorem adj_apply (x1 : (⟨S512x16x16, .f32⟩ : BufTy).Contents (Elt Ideal)) (b : Fin 512) (i : Fin 16) (k : Fin 8192) :
    val_main_v32 (F := Ideal) x1 (ix2 (Cert.Gcn.rrow b i) k)
      = if k.val / 16 = b.val then x1 (ix3 b i ⟨k.val % 16, Nat.mod_lt _ (by norm_num)⟩) else 0 := by
  have hb := b.isLt
  have hi := i.isLt
  have hk8 := k.isLt
  unfold val_main_v32
  by_cases hk : k.val / 16 = b.val
  · rw [if_pos hk]
    have hkk : Cert.Gcn.rrow b ⟨k.val % 16, Nat.mod_lt _ (by norm_num)⟩ = k :=
      Fin.ext (by show 16 * b.val + k.val % 16 = k.val; omega)
    refine Host.scatter_set_apply_of_unique scat _ _ x1 _ (ix3 b i ⟨k.val % 16, Nat.mod_lt _ (by norm_num)⟩) ?_ ?_
    · rw [resultIdx_eq]
      exact congrArg (fun q => some (ix2 (Cert.Gcn.rrow b i) q)) hkk
    · intro j' hj'
      obtain ⟨b', i', j'', rfl⟩ : ∃ (b' : Fin 512) (i' j'' : Fin 16), j' = ix3 b' i' j'' :=
        ⟨j' 0, j' 1, j' 2, eq_ix3 j'⟩
      have hb' := b'.isLt
      have hi' := i'.isLt
      have hj'' := j''.isLt
      rw [resultIdx_eq b' i' j''] at hj'
      have e := Option.some.inj hj'
      have e0 : (Cert.Gcn.rrow b' i').val = (Cert.Gcn.rrow b i).val := congrArg Fin.val (congrFun e (0 : Fin 2))
      have e1 : (Cert.Gcn.rrow b' j'').val = k.val := congrArg Fin.val (congrFun e (1 : Fin 2))
      have e0' : 16 * b'.val + i'.val = 16 * b.val + i.val := e0
      have e1' : 16 * b'.val + j''.val = k.val := e1
      have h1 : b' = b := Fin.ext (by omega)
      have h2 : i' = i := Fin.ext (by omega)
      have h3 : j'' = ⟨k.val % 16, Nat.mod_lt _ (by norm_num)⟩ := Fin.ext (by show j''.val = k.val % 16; omega)
      rw [h1, h2, h3]
  · rw [if_neg hk]
    refine (Host.scatter_set_apply_of_none scat _ _ x1 _ ?_).trans ?_
    · intro j' hj'
      obtain ⟨b', i', j'', rfl⟩ : ∃ (b' : Fin 512) (i' j'' : Fin 16), j' = ix3 b' i' j'' :=
        ⟨j' 0, j' 1, j' 2, eq_ix3 j'⟩
      have hb' := b'.isLt
      have hi' := i'.isLt
      have hj'' := j''.isLt
      rw [resultIdx_eq b' i' j''] at hj'
      have e := Option.some.inj hj'
      have e0 : (Cert.Gcn.rrow b' i').val = (Cert.Gcn.rrow b i).val := congrArg Fin.val (congrFun e (0 : Fin 2))
      have e1 : (Cert.Gcn.rrow b' j'').val = k.val := congrArg Fin.val (congrFun e (1 : Fin 2))
      have e0' : 16 * b'.val + i'.val = 16 * b.val + i.val := e0
      have e1' : 16 * b'.val + j''.val = k.val := e1
      omega
    · rw [val_main_v16_apply, val_main_cst_apply]
      exact Ideal.ofBits_zero_f32

end Cert.ReferenceIdeal.RefValue

end
-- ==== Proof.RefResult.lean ====
/-
  The reference's result, stage by stage, is `Cert.Gcn.result`.

  The reference flattens all 512 graphs into 8192 rows, scatters the adjacencies into ONE 8192 × 8192 matrix of zeros (entry
  `(16 b + i, 16 b + j)` becomes `adj b i j`; nothing else is written), runs the three layers as products with it, regroups
  the rows by graph, sums each graph's 16 rows from zero, divides by sixteen and lays the 512 × 32 means out as
  512 × 32 × 1 × 1.  Row `16 b + i` of every product meets nonzero factors only on graph `b`'s own sixteen columns, so each
  stage at that row is the one-graph stage of `Cert.Gcn` at node `i`; and the quotient by sixteen of the sum from zero is
  the sum of the products with `κ`.
-/
import proofs.«102764_g6493990551891_cont_9to1c4b_81_2_alg».proof.Proof.GcnSpec
import proofs.«102764_g6493990551891_cont_9to1c4b_81_2_alg».proof.Proof.RefAdj
import proofs.«102764_g6493990551891_cont_9to1c4b_81_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.ValueIdx

/-- The flattened features at row `16 b + i`, column `k`, are graph `b`'s node `i`, feature `k`. -/
private theorem v0_row (x0 : (⟨S512x16x128, .f32⟩ : BufTy).Contents (Elt Ideal)) (b : Fin 512) (i : Fin 16) (k : Fin 128) :
    val_main_v0 (F := Ideal) x0 (ix2 (Cert.Gcn.rrow b i) k) = x0 (ix3 b i k) := by
  rw [val_main_v0_apply]
  refine congrArg x0 (funext fun a => Fin.ext ?_)
  have hb : b.val < 512 := b.isLt
  have hi : i.val < 16 := i.isLt
  have hk : k.val < 128 := k.isLt
  match a with
  | ⟨0, _⟩ => show ((16 * b.val + i.val) * 128 + k.val) / 2048 = b.val; omega
  | ⟨1, _⟩ => show ((16 * b.val + i.val) * 128 + k.val) / 128 % 16 = i.val; omega
  | ⟨2, _⟩ => show ((16 * b.val + i.val) * 128 + k.val) % 128 = k.val; omega

/-- A sum against row `16 b + i` of the scattered matrix is the sum over graph `b`'s rows, weighted by its adjacency row `i`. -/
private theorem adj_sum {C : Nat} (x1 : (⟨S512x16x16, .f32⟩ : BufTy).Contents (Elt Ideal)) (b : Fin 512) (i : Fin 16)
    (d : Fin C) (y : (⟨2, ![8192, C]⟩ : Shape).Idx → EReal) :
    (∑ k : Fin 8192, val_main_v32 (F := Ideal) x1 (ix2 (Cert.Gcn.rrow b i) k) * y (ix2 k d))
      = ∑ j : Fin 16, x1 (ix3 b i j) * y (ix2 (Cert.Gcn.rrow b j) d) := by
  have h : ∀ k : Fin 8192, val_main_v32 (F := Ideal) x1 (ix2 (Cert.Gcn.rrow b i) k) * y (ix2 k d)
      = if k.val / 16 = b.val then x1 (ix3 b i ⟨k.val % 16, Nat.mod_lt _ (by norm_num)⟩) * y (ix2 k d) else 0 := by
    intro k
    rw [adj_apply, ite_mul, zero_mul]
  rw [Finset.sum_congr rfl fun k _ => h k]
  rw [Cert.Gcn.sum_blockdiag (n := 512) (R := 8192) (by norm_num) b
    (fun k => x1 (ix3 b i ⟨k.val % 16, Nat.mod_lt _ (by norm_num)⟩) * y (ix2 k d))]
  refine Finset.sum_congr rfl fun j _ => ?_
  have hj : (⟨(Cert.Gcn.rrow b j).val % 16, Nat.mod_lt _ (by norm_num)⟩ : Fin 16) = j :=
    Fin.ext (Cert.Gcn.row_mod _ b j)
  show x1 (ix3 b i ⟨(Cert.Gcn.rrow b j).val % 16, _⟩) * y (ix2 (Cert.Gcn.rrow b j) d) = _
  rw [hj]

/-- Layer one's feature map at row `16 b + i` is the one-graph feature map of graph `b` at node `i`. -/
private theorem v33_row (x0 : (⟨S512x16x128, .f32⟩ : BufTy).Contents (Elt Ideal)) (x2 : (⟨S128x128, .f32⟩ : BufTy).Contents (Elt Ideal)) (b : Fin 512) (i : Fin 16) (d : Fin 128) :
    val_main_v33 (F := Ideal) x0 x2 (ix2 (Cert.Gcn.rrow b i) d) = Cert.Gcn.lin (fun n k => x0 (ix3 b n k)) (fun k d => x2 (ix2 k d)) i d := by
  rw [val_main_v33_apply]
  show _ = ∑ k : Fin 128, x0 (ix3 b i k) * x2 (ix2 k d)
  refine Finset.sum_congr rfl fun k _ => ?_
  have el : lidx_main_v33 (ix2 (Cert.Gcn.rrow b i) d) k = ix2 (Cert.Gcn.rrow b i) k := funext fun a => match a with | ⟨0, _⟩ => rfl | ⟨1, _⟩ => rfl
  have er : ridx_main_v33 (ix2 (Cert.Gcn.rrow b i) d) k = ix2 k d := funext fun a => match a with | ⟨0, _⟩ => rfl | ⟨1, _⟩ => rfl
  rw [el, er, v0_row]

/-- Layer one's neighbourhood sum at row `16 b + i`. -/
private theorem v34_row (x0 : (⟨S512x16x128, .f32⟩ : BufTy).Contents (Elt Ideal)) (x1 : (⟨S512x16x16, .f32⟩ : BufTy).Contents (Elt Ideal)) (x2 : (⟨S128x128, .f32⟩ : BufTy).Contents (Elt Ideal)) (b : Fin 512) (i : Fin 16) (d : Fin 128) :
    val_main_v34 (F := Ideal) x0 x1 x2 (ix2 (Cert.Gcn.rrow b i) d)
      = ∑ j : Fin 16, x1 (ix3 b i j) * Cert.Gcn.lin (fun n k => x0 (ix3 b n k)) (fun k d => x2 (ix2 k d)) j d := by
  rw [val_main_v34_apply]
  have e : ∀ k : Fin 8192, val_main_v32 (F := Ideal) x1 (lidx_main_v34 (ix2 (Cert.Gcn.rrow b i) d) k)
        * val_main_v33 (F := Ideal) x0 x2 (ridx_main_v34 (ix2 (Cert.Gcn.rrow b i) d) k)
      = val_main_v32 (F := Ideal) x1 (ix2 (Cert.Gcn.rrow b i) k) * val_main_v33 (F := Ideal) x0 x2 (ix2 k d) := by
    intro k
    have el : lidx_main_v34 (ix2 (Cert.Gcn.rrow b i) d) k = ix2 (Cert.Gcn.rrow b i) k := funext fun a => match a with | ⟨0, _⟩ => rfl | ⟨1, _⟩ => rfl
    have er : ridx_main_v34 (ix2 (Cert.Gcn.rrow b i) d) k = ix2 k d := funext fun a => match a with | ⟨0, _⟩ => rfl | ⟨1, _⟩ => rfl
    rw [el, er]
  rw [Finset.sum_congr rfl fun k _ => e k, adj_sum x1 b i d (val_main_v33 (F := Ideal) x0 x2)]
  exact Finset.sum_congr rfl fun j _ => congrArg _ (v33_row x0 x2 b j d)

/-- The first bias, broadcast over the rows, reads its column. -/
private theorem v36_row (x3 : (⟨S128, .f32⟩ : BufTy).Contents (Elt Ideal)) (r : Fin 8192) (d : Fin 128) :
    val_main_v36 (F := Ideal) x3 (ix2 r d) = x3 (ix1 d) := by
  rw [val_main_v36_apply, val_main_v35_apply]
  exact congrArg x3 (funext fun a => match a with | ⟨0, _⟩ => rfl)

/-- Layer one, rectified, at row `16 b + i`. -/
private theorem v38_row (x0 : (⟨S512x16x128, .f32⟩ : BufTy).Contents (Elt Ideal)) (x1 : (⟨S512x16x16, .f32⟩ : BufTy).Contents (Elt Ideal)) (x2 : (⟨S128x128, .f32⟩ : BufTy).Contents (Elt Ideal)) (x3 : (⟨S128, .f32⟩ : BufTy).Contents (Elt Ideal)) (b : Fin 512) (i : Fin 16) (d : Fin 128) :
    val_main_v38 (F := Ideal) x0 x1 x2 x3 (ix2 (Cert.Gcn.rrow b i) d) = (Cert.Gcn.relu (Cert.Gcn.mix (fun n j => x1 (ix3 b n j)) (Cert.Gcn.lin (fun n k => x0 (ix3 b n k)) (fun k d => x2 (ix2 k d))) (fun d => x3 (ix1 d)))) i d := by
  rw [val_main_v38_apply, val_main_call0_v0_apply, val_main_call0_cst_apply, val_main_v37_apply, v34_row, v36_row,
    Ideal.maximumf_def, Ideal.addf_def, Ideal.ofBits_def, Ideal.ofBits_zero_f32]
  rfl

/-- Layer two's feature map at row `16 b + i`. -/
private theorem v39_row (x0 : (⟨S512x16x128, .f32⟩ : BufTy).Contents (Elt Ideal)) (x1 : (⟨S512x16x16, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (b : Fin 512) (i : Fin 16) (d : Fin 64) :
    val_main_v39 (F := Ideal) x0 x1 x2 x3 x4 (ix2 (Cert.Gcn.rrow b i) d) = Cert.Gcn.lin (Cert.Gcn.relu (Cert.Gcn.mix (fun n j => x1 (ix3 b n j)) (Cert.Gcn.lin (fun n k => x0 (ix3 b n k)) (fun k d => x2 (ix2 k d))) (fun d => x3 (ix1 d)))) (fun k d => x4 (ix2 k d)) i d := by
  rw [val_main_v39_apply]
  show _ = ∑ k : Fin 128, (Cert.Gcn.relu (Cert.Gcn.mix (fun n j => x1 (ix3 b n j)) (Cert.Gcn.lin (fun n k => x0 (ix3 b n k)) (fun k d => x2 (ix2 k d))) (fun d => x3 (ix1 d)))) i k * x4 (ix2 k d)
  refine Finset.sum_congr rfl fun k _ => ?_
  have el : lidx_main_v39 (ix2 (Cert.Gcn.rrow b i) d) k = ix2 (Cert.Gcn.rrow b i) k := funext fun a => match a with | ⟨0, _⟩ => rfl | ⟨1, _⟩ => rfl
  have er : ridx_main_v39 (ix2 (Cert.Gcn.rrow b i) d) k = ix2 k d := funext fun a => match a with | ⟨0, _⟩ => rfl | ⟨1, _⟩ => rfl
  rw [el, er, v38_row]

/-- Layer two's neighbourhood sum at row `16 b + i`. -/
private theorem v40_row (x0 : (⟨S512x16x128, .f32⟩ : BufTy).Contents (Elt Ideal)) (x1 : (⟨S512x16x16, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (b : Fin 512) (i : Fin 16) (d : Fin 64) :
    val_main_v40 (F := Ideal) x0 x1 x2 x3 x4 (ix2 (Cert.Gcn.rrow b i) d)
      = ∑ j : Fin 16, x1 (ix3 b i j) * (Cert.Gcn.lin (Cert.Gcn.relu (Cert.Gcn.mix (fun n j => x1 (ix3 b n j)) (Cert.Gcn.lin (fun n k => x0 (ix3 b n k)) (fun k d => x2 (ix2 k d))) (fun d => x3 (ix1 d)))) (fun k d => x4 (ix2 k d))) j d := by
  rw [val_main_v40_apply]
  have e : ∀ k : Fin 8192, val_main_v32 (F := Ideal) x1 (lidx_main_v40 (ix2 (Cert.Gcn.rrow b i) d) k)
        * val_main_v39 (F := Ideal) x0 x1 x2 x3 x4 (ridx_main_v40 (ix2 (Cert.Gcn.rrow b i) d) k)
      = val_main_v32 (F := Ideal) x1 (ix2 (Cert.Gcn.rrow b i) k) * val_main_v39 (F := Ideal) x0 x1 x2 x3 x4 (ix2 k d) := by
    intro k
    have el : lidx_main_v40 (ix2 (Cert.Gcn.rrow b i) d) k = ix2 (Cert.Gcn.rrow b i) k := funext fun a => match a with | ⟨0, _⟩ => rfl | ⟨1, _⟩ => rfl
    have er : ridx_main_v40 (ix2 (Cert.Gcn.rrow b i) d) k = ix2 k d := funext fun a => match a with | ⟨0, _⟩ => rfl | ⟨1, _⟩ => rfl
    rw [el, er]
  rw [Finset.sum_congr rfl fun k _ => e k, adj_sum x1 b i d (val_main_v39 (F := Ideal) x0 x1 x2 x3 x4)]
  exact Finset.sum_congr rfl fun j _ => congrArg _ (v39_row x0 x1 x2 x3 x4 b j d)

/-- The second bias, broadcast over the rows, reads its column. -/
private theorem v42_row (x5 : (⟨S64, .f32⟩ : BufTy).Contents (Elt Ideal)) (r : Fin 8192) (d : Fin 64) :
    val_main_v42 (F := Ideal) x5 (ix2 r d) = x5 (ix1 d) := by
  rw [val_main_v42_apply, val_main_v41_apply]
  exact congrArg x5 (funext fun a => match a with | ⟨0, _⟩ => rfl)

/-- Layer two, rectified, at row `16 b + i`. -/
private theorem v44_row (x0 : (⟨S512x16x128, .f32⟩ : BufTy).Contents (Elt Ideal)) (x1 : (⟨S512x16x16, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (b : Fin 512) (i : Fin 16) (d : Fin 64) :
    val_main_v44 (F := Ideal) x0 x1 x2 x3 x4 x5 (ix2 (Cert.Gcn.rrow b i) d) = (Cert.Gcn.relu (Cert.Gcn.mix (fun n j => x1 (ix3 b n j)) (Cert.Gcn.lin (Cert.Gcn.relu (Cert.Gcn.mix (fun n j => x1 (ix3 b n j)) (Cert.Gcn.lin (fun n k => x0 (ix3 b n k)) (fun k d => x2 (ix2 k d))) (fun d => x3 (ix1 d)))) (fun k d => x4 (ix2 k d))) (fun d => x5 (ix1 d)))) i d := by
  rw [val_main_v44_apply, val_main_call1_v0_apply, val_main_call1_cst_apply, val_main_v43_apply, v40_row, v42_row,
    Ideal.maximumf_def, Ideal.addf_def, Ideal.ofBits_def, Ideal.ofBits_zero_f32]
  rfl

/-- Layer three's feature map at row `16 b + i`. -/
private theorem v45_row (x0 : (⟨S512x16x128, .f32⟩ : BufTy).Contents (Elt Ideal)) (x1 : (⟨S512x16x16, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S64x32, .f32⟩ : BufTy).Contents (Elt Ideal)) (b : Fin 512) (i : Fin 16) (d : Fin 32) :
    val_main_v45 (F := Ideal) x0 x1 x2 x3 x4 x5 x6 (ix2 (Cert.Gcn.rrow b i) d) = Cert.Gcn.lin (Cert.Gcn.relu (Cert.Gcn.mix (fun n j => x1 (ix3 b n j)) (Cert.Gcn.lin (Cert.Gcn.relu (Cert.Gcn.mix (fun n j => x1 (ix3 b n j)) (Cert.Gcn.lin (fun n k => x0 (ix3 b n k)) (fun k d => x2 (ix2 k d))) (fun d => x3 (ix1 d)))) (fun k d => x4 (ix2 k d))) (fun d => x5 (ix1 d)))) (fun k d => x6 (ix2 k d)) i d := by
  rw [val_main_v45_apply]
  show _ = ∑ k : Fin 64, (Cert.Gcn.relu (Cert.Gcn.mix (fun n j => x1 (ix3 b n j)) (Cert.Gcn.lin (Cert.Gcn.relu (Cert.Gcn.mix (fun n j => x1 (ix3 b n j)) (Cert.Gcn.lin (fun n k => x0 (ix3 b n k)) (fun k d => x2 (ix2 k d))) (fun d => x3 (ix1 d)))) (fun k d => x4 (ix2 k d))) (fun d => x5 (ix1 d)))) i k * x6 (ix2 k d)
  refine Finset.sum_congr rfl fun k _ => ?_
  have el : lidx_main_v45 (ix2 (Cert.Gcn.rrow b i) d) k = ix2 (Cert.Gcn.rrow b i) k := funext fun a => match a with | ⟨0, _⟩ => rfl | ⟨1, _⟩ => rfl
  have er : ridx_main_v45 (ix2 (Cert.Gcn.rrow b i) d) k = ix2 k d := funext fun a => match a with | ⟨0, _⟩ => rfl | ⟨1, _⟩ => rfl
  rw [el, er, v44_row]

/-- Layer three's neighbourhood sum at row `16 b + i`. -/
private theorem v46_row (x0 : (⟨S512x16x128, .f32⟩ : BufTy).Contents (Elt Ideal)) (x1 : (⟨S512x16x16, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S64x32, .f32⟩ : BufTy).Contents (Elt Ideal)) (b : Fin 512) (i : Fin 16) (d : Fin 32) :
    val_main_v46 (F := Ideal) x0 x1 x2 x3 x4 x5 x6 (ix2 (Cert.Gcn.rrow b i) d)
      = ∑ j : Fin 16, x1 (ix3 b i j) * (Cert.Gcn.lin (Cert.Gcn.relu (Cert.Gcn.mix (fun n j => x1 (ix3 b n j)) (Cert.Gcn.lin (Cert.Gcn.relu (Cert.Gcn.mix (fun n j => x1 (ix3 b n j)) (Cert.Gcn.lin (fun n k => x0 (ix3 b n k)) (fun k d => x2 (ix2 k d))) (fun d => x3 (ix1 d)))) (fun k d => x4 (ix2 k d))) (fun d => x5 (ix1 d)))) (fun k d => x6 (ix2 k d))) j d := by
  rw [val_main_v46_apply]
  have e : ∀ k : Fin 8192, val_main_v32 (F := Ideal) x1 (lidx_main_v46 (ix2 (Cert.Gcn.rrow b i) d) k)
        * val_main_v45 (F := Ideal) x0 x1 x2 x3 x4 x5 x6 (ridx_main_v46 (ix2 (Cert.Gcn.rrow b i) d) k)
      = val_main_v32 (F := Ideal) x1 (ix2 (Cert.Gcn.rrow b i) k) * val_main_v45 (F := Ideal) x0 x1 x2 x3 x4 x5 x6 (ix2 k d) := by
    intro k
    have el : lidx_main_v46 (ix2 (Cert.Gcn.rrow b i) d) k = ix2 (Cert.Gcn.rrow b i) k := funext fun a => match a with | ⟨0, _⟩ => rfl | ⟨1, _⟩ => rfl
    have er : ridx_main_v46 (ix2 (Cert.Gcn.rrow b i) d) k = ix2 k d := funext fun a => match a with | ⟨0, _⟩ => rfl | ⟨1, _⟩ => rfl
    rw [el, er]
  rw [Finset.sum_congr rfl fun k _ => e k, adj_sum x1 b i d (val_main_v45 (F := Ideal) x0 x1 x2 x3 x4 x5 x6)]
  exact Finset.sum_congr rfl fun j _ => congrArg _ (v45_row x0 x1 x2 x3 x4 x5 x6 b j d)

/-- The third bias, broadcast over the rows, reads its column. -/
private theorem v48_row (x7 : (⟨S32, .f32⟩ : BufTy).Contents (Elt Ideal)) (r : Fin 8192) (d : Fin 32) :
    val_main_v48 (F := Ideal) x7 (ix2 r d) = x7 (ix1 d) := by
  rw [val_main_v48_apply, val_main_v47_apply]
  exact congrArg x7 (funext fun a => match a with | ⟨0, _⟩ => rfl)

/-- The three layers at row `16 b + i` are the one-graph layers of graph `b` at node `i`. -/
private theorem v49_row (x0 : (⟨S512x16x128, .f32⟩ : BufTy).Contents (Elt Ideal)) (x1 : (⟨S512x16x16, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S64x32, .f32⟩ : BufTy).Contents (Elt Ideal)) (x7 : (⟨S32, .f32⟩ : BufTy).Contents (Elt Ideal)) (b : Fin 512) (i : Fin 16) (d : Fin 32) :
    val_main_v49 (F := Ideal) x0 x1 x2 x3 x4 x5 x6 x7 (ix2 (Cert.Gcn.rrow b i) d)
      = Cert.Gcn.layers (fun n k => x0 (ix3 b n k)) (fun n j => x1 (ix3 b n j)) (fun k d => x2 (ix2 k d)) (fun d => x3 (ix1 d)) (fun k d => x4 (ix2 k d)) (fun d => x5 (ix1 d)) (fun k d => x6 (ix2 k d)) (fun d => x7 (ix1 d)) i d := by
  rw [val_main_v49_apply, v46_row, v48_row, Ideal.addf_def]
  rfl

/-- Regrouped by graph, node `i` of graph `b` is row `16 b + i`. -/
private theorem v50_ix3 (x0 : (⟨S512x16x128, .f32⟩ : BufTy).Contents (Elt Ideal)) (x1 : (⟨S512x16x16, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S64x32, .f32⟩ : BufTy).Contents (Elt Ideal)) (x7 : (⟨S32, .f32⟩ : BufTy).Contents (Elt Ideal)) (b : Fin 512) (i : Fin 16) (c : Fin 32) :
    val_main_v50 (F := Ideal) x0 x1 x2 x3 x4 x5 x6 x7 (ix3 b i c) = val_main_v49 (F := Ideal) x0 x1 x2 x3 x4 x5 x6 x7 (ix2 (Cert.Gcn.rrow b i) c) := by
  rw [val_main_v50_apply]
  refine congrArg _ (funext fun a => Fin.ext ?_)
  have hb : b.val < 512 := b.isLt
  have hi : i.val < 16 := i.isLt
  have hc : c.val < 32 := c.isLt
  match a with
  | ⟨0, _⟩ => show ((b.val * 16 + i.val) * 32 + c.val) / 32 = 16 * b.val + i.val; omega
  | ⟨1, _⟩ => show ((b.val * 16 + i.val) * 32 + c.val) % 32 = c.val; omega

/-- The tile by one (to rank six, a broadcast that keeps every axis, and back) changes nothing. -/
private theorem v53_eq (x0 : (⟨S512x16x128, .f32⟩ : BufTy).Contents (Elt Ideal)) (x1 : (⟨S512x16x16, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S64x32, .f32⟩ : BufTy).Contents (Elt Ideal)) (x7 : (⟨S32, .f32⟩ : BufTy).Contents (Elt Ideal)) :
    val_main_v53 (F := Ideal) x0 x1 x2 x3 x4 x5 x6 x7 = val_main_v50 (F := Ideal) x0 x1 x2 x3 x4 x5 x6 x7 := by
  have h52 : val_main_v52 (F := Ideal) x0 x1 x2 x3 x4 x5 x6 x7 = val_main_v51 (F := Ideal) x0 x1 x2 x3 x4 x5 x6 x7 := by
    funext j
    rw [val_main_v52_apply]
    refine congrArg _ (funext fun a => Fin.ext ?_)
    match a with
    | ⟨0, _⟩ => have h : (j 0).val < 1 := (j 0).isLt; show 0 = (j 0).val; omega
    | ⟨1, _⟩ => rfl
    | ⟨2, _⟩ => have h : (j 2).val < 1 := (j 2).isLt; show 0 = (j 2).val; omega
    | ⟨3, _⟩ => rfl
    | ⟨4, _⟩ => have h : (j 4).val < 1 := (j 4).isLt; show 0 = (j 4).val; omega
    | ⟨5, _⟩ => rfl
  unfold val_main_v53
  rw [h52]
  unfold val_main_v51
  exact shapeCast_shapeCast _ _ _

/-- The sum over a graph's sixteen nodes, from zero. -/
private theorem v54_ix2 (x0 : (⟨S512x16x128, .f32⟩ : BufTy).Contents (Elt Ideal)) (x1 : (⟨S512x16x16, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S64x32, .f32⟩ : BufTy).Contents (Elt Ideal)) (x7 : (⟨S32, .f32⟩ : BufTy).Contents (Elt Ideal)) (b : Fin 512) (c : Fin 32) :
    val_main_v54 (F := Ideal) x0 x1 x2 x3 x4 x5 x6 x7 (ix2 b c)
      = 0 + ∑ k : Fin 16, val_main_v50 (F := Ideal) x0 x1 x2 x3 x4 x5 x6 x7 (ix3 b k c) := by
  rw [val_main_v54_apply, val_main_cst_4_apply, Ideal.ofBits_def, Ideal.ofBits_zero_f32, v53_eq]
  refine congrArg (fun t => 0 + t) (Finset.sum_congr rfl fun k _ => congrArg _ ?_)
  exact funext fun a => match a with | ⟨0, _⟩ => rfl | ⟨1, _⟩ => rfl | ⟨2, _⟩ => rfl

/-- The last stage of the reference, as a function of the eight argument arrays, is `Cert.Gcn.result` of them. -/
theorem result_eq (x0 : (⟨S512x16x128, .f32⟩ : BufTy).Contents (Elt Ideal)) (x1 : (⟨S512x16x16, .f32⟩ : BufTy).Contents (Elt Ideal)) (x2 : (⟨S128x128, .f32⟩ : BufTy).Contents (Elt Ideal)) (x3 : (⟨S128, .f32⟩ : BufTy).Contents (Elt Ideal)) (x4 : (⟨S128x64, .f32⟩ : BufTy).Contents (Elt Ideal)) (x5 : (⟨S64, .f32⟩ : BufTy).Contents (Elt Ideal)) (x6 : (⟨S64x32, .f32⟩ : BufTy).Contents (Elt Ideal)) (x7 : (⟨S32, .f32⟩ : BufTy).Contents (Elt Ideal)) :
    val_main_v59 (F := Ideal) x0 x1 x2 x3 x4 x5 x6 x7 = Cert.Gcn.result x0 x1 x2 x3 x4 x5 x6 x7 := by
  funext i
  obtain ⟨b, c, d, e, rfl⟩ : ∃ (b : Fin 512) (c : Fin 32) (d e : Fin 1), i = ix4 b c d e :=
    ⟨i 0, i 1, i 2, i 3, eq_ix4 i⟩
  rw [Cert.Gcn.result_ix4]
  have e59 : idx_main_v59 (ix4 b c d e) = ix3 b c (⟨0, Nat.one_pos⟩ : Fin 1) := funext fun a => Fin.ext (by
    have hb : b.val < 512 := b.isLt
    have hc : c.val < 32 := c.isLt
    have hd : d.val < 1 := d.isLt
    have he : e.val < 1 := e.isLt
    match a with
    | ⟨0, _⟩ => show (((b.val * 32 + c.val) * 1 + d.val) * 1 + e.val) / 32 = b.val; omega
    | ⟨1, _⟩ => show (((b.val * 32 + c.val) * 1 + d.val) * 1 + e.val) / 1 % 32 = c.val; omega
    | ⟨2, _⟩ => rfl)
  have e58 : idx_main_v58 (ix3 b c (⟨0, Nat.one_pos⟩ : Fin 1)) = ix3 b (⟨0, Nat.one_pos⟩ : Fin 1) c := funext fun a => match a with | ⟨0, _⟩ => rfl | ⟨1, _⟩ => rfl | ⟨2, _⟩ => rfl
  have e55 : idx_main_v55 (ix3 b (⟨0, Nat.one_pos⟩ : Fin 1) c) = ix2 b c := funext fun a => match a with | ⟨0, _⟩ => rfl | ⟨1, _⟩ => rfl
  rw [val_main_v59_apply, e59, val_main_v58_apply, e58, val_main_v57_apply, val_main_v55_apply, e55, val_main_v56_apply,
    val_main_cst_5_apply, Ideal.hostDivf_def, Ideal.ofBits_def, v54_ix2]
  unfold Cert.Gcn.resultAt
  rw [Cert.Gcn.nodeMean_eq_div]
  have hs : (∑ k : Fin 16, val_main_v50 (F := Ideal) x0 x1 x2 x3 x4 x5 x6 x7 (ix3 b k c))
      = ∑ k : Fin 16, Cert.Gcn.layers (fun n k => x0 (ix3 b n k)) (fun n j => x1 (ix3 b n j)) (fun k d => x2 (ix2 k d)) (fun d => x3 (ix1 d)) (fun k d => x4 (ix2 k d)) (fun d => x5 (ix1 d)) (fun k d => x6 (ix2 k d)) (fun d => x7 (ix1 d)) k c :=
    Finset.sum_congr rfl fun k _ => by rw [v50_ix3, v49_row]
  rw [hs]

end Cert.ReferenceIdeal.RefValue

end
-- ==== Proof.lean ====
/-
  A three-layer graph convolution over a batch of 512 graphs of 16 nodes, followed by the mean over each graph's nodes,
  computed two ways.

  Both programs compute, for graph `b` and output column `c`, the mean over the graph's 16 nodes of
  `a · (relu (a · (relu (a · (x · W1) + b1) · W2) + b2) · W3) + b3`, where `x` is the graph's 16 × 128 feature block and `a` its
  16 × 16 adjacency (`Cert.Gcn.resultAt`).  Graph `b` mixes only its own nodes.

  The kernel takes 16 graphs per grid point and multiplies by the 256 × 256 block-diagonal matrix of their adjacencies; the
  reference multiplies by the single 8192 × 8192 block-diagonal matrix of all of them.  A product with either one is, at a row
  of graph `b`, a sum whose terms off that graph's sixteen columns have the factor zero, and zero times any extended real is
  zero: both are the sum over the graph's own nodes.  The kernel averages by a product with `2⁻⁴` on the graph's rows, the
  reference sums from zero and divides by sixteen; a nonnegative real factor distributes over sums of extended reals, so the
  two agree.  No step uses that the inputs are finite.

  The three frames: the two kernels' are the generated frame certificates, the reference's is its generated run with the
  result dropped.  The idealization rewrote nothing, so what it preserves is `True`.  The two idealized programs, run from
  memories that agree on the arguments, both end with their result at `Cert.Gcn.result` of the same eight arrays.
-/
import proofs.«102764_g6493990551891_cont_9to1c4b_81_2_alg».proof.Defs
import proofs.«102764_g6493990551891_cont_9to1c4b_81_2_alg».proof.Proof.Gen.Kernel
import proofs.«102764_g6493990551891_cont_9to1c4b_81_2_alg».proof.Proof.Gen.Kernel.Skeleton
import proofs.«102764_g6493990551891_cont_9to1c4b_81_2_alg».proof.Proof.Gen.Kernel.Launch
import proofs.«102764_g6493990551891_cont_9to1c4b_81_2_alg».proof.Proof.Gen.Kernel.Points
import proofs.«102764_g6493990551891_cont_9to1c4b_81_2_alg».proof.Proof.Gen.Kernel.Frame
import proofs.«102764_g6493990551891_cont_9to1c4b_81_2_alg».proof.Proof.Gen.KernelIdeal
import proofs.«102764_g6493990551891_cont_9to1c4b_81_2_alg».proof.Proof.Gen.KernelIdeal.Skeleton
import proofs.«102764_g6493990551891_cont_9to1c4b_81_2_alg».proof.Proof.Gen.KernelIdeal.Launch
import proofs.«102764_g6493990551891_cont_9to1c4b_81_2_alg».proof.Proof.Gen.KernelIdeal.Points
import proofs.«102764_g6493990551891_cont_9to1c4b_81_2_alg».proof.Proof.Gen.KernelIdeal.Frame
import proofs.«102764_g6493990551891_cont_9to1c4b_81_2_alg».proof.Proof.Gen.ReferenceIdeal
import proofs.«102764_g6493990551891_cont_9to1c4b_81_2_alg».proof.Proof.Gen.Pre_finite_inputs
import proofs.«102764_g6493990551891_cont_9to1c4b_81_2_alg».proof.Proof.Gen.ReferenceIdeal.Run
import proofs.«102764_g6493990551891_cont_9to1c4b_81_2_alg».proof.Proof.Gen.ReferenceIdeal.Read
import proofs.«102764_g6493990551891_cont_9to1c4b_81_2_alg».proof.Proof.GcnSpec
import proofs.«102764_g6493990551891_cont_9to1c4b_81_2_alg».proof.Proof.KernelRun
import proofs.«102764_g6493990551891_cont_9to1c4b_81_2_alg».proof.Proof.RefResult
import Idealize.ShloMosaic.Adequacy
import Idealize.ShloMosaic.Init

noncomputable section

namespace Cert.Proof

open Idealize.ShloMosaic Idealize.SL.Sem

/-- The kernel as printed runs and leaves its arguments unchanged. -/
theorem frame_kernel [Cert.Kernel.Facts] [Cert.Pre_finite_inputs.Facts] : Cert.frame_Kernel :=
  fun m ρ _ => Cert.Kernel.Gen.frame m ρ

/-- So does its idealization. -/
theorem frame_kernelIdeal [Cert.KernelIdeal.Facts] [Cert.Pre_finite_inputs.Facts] : Cert.frame_KernelIdeal :=
  fun m ρ _ => Cert.KernelIdeal.Gen.frame m ρ

/-- The reference is a host program: its run, with what it says of the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on the eight arguments, both idealized programs end with the result `Cert.Gcn.result` of
    those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq, Cert.ReferenceIdeal.RefValue.result_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
